-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x256x7x7 : Shape := ⟨4, ![4096, 256, 7, 7]⟩
abbrev S256x32768 : Shape := ⟨2, ![256, 32768]⟩
abbrev S32768 : Shape := ⟨1, ![32768]⟩
abbrev S64 : Shape := ⟨1, ![64]⟩
abbrev S256 : Shape := ⟨1, ![256]⟩
abbrev S12544x256 : Shape := ⟨2, ![12544, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x256x7x7 : S_.BroadcastsInDim S4096x256x7x7 (![] : Fin 0 → Fin S4096x256x7x7.rank)
  reducesTo_S4096x256x7x7_S_d0_1_2_3 : S4096x256x7x7.ReducesTo [0, 1, 2, 3] S_
  bcast_S_S256x32768 : S_.BroadcastsInDim S256x32768 (![] : Fin 0 → Fin S256x32768.rank)
  reducesTo_S256x32768_S_d0_1 : S256x32768.ReducesTo [0, 1] S_
  bcast_S_S32768 : S_.BroadcastsInDim S32768 (![] : Fin 0 → Fin S32768.rank)
  reducesTo_S32768_S_d0 : S32768.ReducesTo [0] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S12544x256 : S_.BroadcastsInDim S12544x256 (![] : Fin 0 → Fin S12544x256.rank)
  reducesTo_S12544x256_S_d0_1 : S12544x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S12544x256 .f32) (main_arg9 : FVec F S256 .f32) (main_arg10 : FVec F S256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S12544x256 .f32 := Host.absf main_arg8
  let main_cst_14 : FVec F S_ .f32 := constant S_ .f32 0x7F800000#32
  let main_v40 : FVec F S12544x256 .f32 := broadcastInDim S12544x256 ![] bcast_S_S12544x256 main_cst_14
  let main_v41 : IVec S12544x256 1 := cmpf .olt main_v39 main_v40
  let main_c_15 : IVec S_ 1 := constantI S_ 1 1#1
  let main_v42 : IVec S_ 1 := (fun x v => Host.reduce IntOp.andi x v reducesTo_S12544x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S64 .f32) (main_arg5 : FVec F S64 .f32) (main_arg6 : FVec F S256 .f32) (main_arg7 : FVec F S256 .f32) (main_arg8 : FVec F S12544x256 .f32) (main_arg9 : FVec F S256 .f32) (main_arg10 : FVec F S256 .f32) (main_arg11 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x256 .f32) (main_arg1 : FVec F S4096x256x7x7 .f32) (main_arg2 : FVec F S256x32768 .f32) (main_arg3 : FVec F S32768 .f32) (main_arg4 : FVec F S64 .f32) (main_arg5 : FVec F S64 .f32) (main_arg6 : FVec F S256 .f32) (main_arg7 : FVec F S256 .f32) (main_arg8 : FVec F S12544x256 .f32) (main_arg9 : FVec F S256 .f32) (main_arg10 : FVec F S256 .f32) (main_arg11 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256x7x7 .f32 := Host.absf main_arg1
  let main_cst_0 : FVec F S_ .f32 := constant S_ .f32 0x7F800000#32
  let main_v5 : FVec F S4096x256x7x7 .f32 := broadcastInDim S4096x256x7x7 ![] bcast_S_S4096x256x7x7 main_cst_0
  let main_v6 : IVec S4096x256x7x7 1 := cmpf .olt main_v4 main_v5
  let main_c_1 : IVec S_ 1 := constantI S_ 1 1#1
  let main_v7 : IVec S_ 1 := (fun x v => Host.reduce IntOp.andi x v reducesTo_S4096x256x7x7_S_d0_1_2_3 h_S_) main_v6 main_c_1
  let main_v8 : IVec S_ 1 := andi main_v3 main_v7
  let main_v9 : FVec F S256x32768 .f32 := Host.absf main_arg2
  let main_cst_2 : FVec F S_ .f32 := constant S_ .f32 0x7F800000#32
  let main_v10 : FVec F S256x32768 .f32 := broadcastInDim S256x32768 ![] bcast_S_S256x32768 main_cst_2
  let main_v11 : IVec S256x32768 1 := cmpf .olt main_v9 main_v10
  let main_c_3 : IVec S_ 1 := constantI S_ 1 1#1
  let main_v12 : IVec S_ 1 := (fun x v => Host.reduce IntOp.andi x v reducesTo_S256x32768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_v13 main_v16
-- ==== Kernel.lean ====
abbrev S4096x256 : Shape := ⟨2, ![4096, 256]⟩
abbrev S4096x256x7x7 : Shape := ⟨4, ![4096, 256, 7, 7]⟩
abbrev S256x32768 : Shape := ⟨2, ![256, 32768]⟩
abbrev S32768 : Shape := ⟨1, ![32768]⟩
abbrev S64 : Shape := ⟨1, ![64]⟩
abbrev S256 : Shape := ⟨1, ![256]⟩
abbrev S12544x256 : Shape := ⟨2, ![12544, 256]⟩
abbrev S4096x256x49 : Shape := ⟨3, ![4096, 256, 49]⟩
abbrev S256x16384 : Shape := ⟨2, ![256, 16384]⟩
abbrev S16384 : Shape := ⟨1, ![16384]⟩
abbrev S1x16384 : Shape := ⟨2, ![1, 16384]⟩
abbrev S1x64 : Shape := ⟨2, ![1, 64]⟩
abbrev S1x256 : Shape := ⟨2, ![1, 256]⟩
abbrev S16x256 : Shape := ⟨2, ![16, 256]⟩
abbrev S16x256x49 : Shape := ⟨3, ![16, 256, 49]⟩
abbrev S16x16384 : Shape := ⟨2, ![16, 16384]⟩
abbrev S16x256x64 : Shape := ⟨3, ![16, 256, 64]⟩
abbrev S16x64x256 : Shape := ⟨3, ![16, 64, 256]⟩
abbrev S16x49x256 : Shape := ⟨3, ![16, 49, 256]⟩
abbrev S16x49x64 : Shape := ⟨3, ![16, 49, 64]⟩
abbrev S16x49 : Shape := ⟨2, ![16, 49]⟩
abbrev S16x49x1 : Shape := ⟨3, ![16, 49, 1]⟩
abbrev S1x1x64 : Shape := ⟨3, ![1, 1, 64]⟩
abbrev S1x1x256 : Shape := ⟨3, ![1, 1, 256]⟩
abbrev S16x12544 : Shape := ⟨2, ![16, 12544]⟩
abbrev S16 : Shape := ⟨1, ![16]⟩
abbrev S16x1 : Shape := ⟨2, ![16, 1]⟩

abbrev nBuf : Space → Nat
  | .hbm => 31
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256x7x7, .f32⟩
  | .hbm, ⟨2, _⟩ => ⟨S256x32768, .f32⟩
  | .hbm, ⟨3, _⟩ => ⟨S32768, .f32⟩
  | .hbm, ⟨4, _⟩ => ⟨S64, .f32⟩
  | .hbm, ⟨5, _⟩ => ⟨S64, .f32⟩
  | .hbm, ⟨6, _⟩ => ⟨S256, .f32⟩
  | .hbm, ⟨7, _⟩ => ⟨S256, .f32⟩
  | .hbm, ⟨8, _⟩ => ⟨S12544x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4096x256x49, .f32⟩
  | .hbm, ⟨13, _⟩ => ⟨S4096x256, .bf16⟩
  | .hbm, ⟨14, _⟩ => ⟨S256x16384, .f32⟩
  | .hbm, ⟨15, _⟩ => ⟨S256x16384, .bf16⟩
  | .hbm, ⟨16, _⟩ => ⟨S256x16384, .f32⟩
  | .hbm, ⟨17, _⟩ => ⟨S256x16384, .bf16⟩
  | .hbm, ⟨18, _⟩ => ⟨S16384, .f32⟩
  | .hbm, ⟨19, _⟩ => ⟨S1x16384, .f32⟩
  | .hbm, ⟨20, _⟩ => ⟨S16384, .f32⟩
  | .hbm, ⟨21, _⟩ => ⟨S1x16384, .f32⟩
  | .hbm, ⟨22, _⟩ => ⟨S1x64, .f32⟩
  | .hbm, ⟨23, _⟩ => ⟨S1x64, .f32⟩
  | .hbm, ⟨24, _⟩ => ⟨S1x256, .f32⟩
  | .hbm, ⟨25, _⟩ => ⟨S1x256, .f32⟩
  | .hbm, ⟨26, _⟩ => ⟨S12544x256, .bf16⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S4096x256, .f32⟩
  | .local _ .vmem, ⟨0, _⟩ => ⟨S16x256, .bf16⟩
  | .local _ .vmem, ⟨1, _⟩ => ⟨S16x256, .bf16⟩
  | .local _ .vmem, ⟨2, _⟩ => ⟨S16x256x49, .f32⟩
  | .local _ .vmem, ⟨3, _⟩ => ⟨S16x256x49, .f32⟩
  | .local _ .vmem, ⟨4, _⟩ => ⟨S256x16384, .bf16⟩
  | .local _ .vmem, ⟨5, _⟩ => ⟨S1x16384, .f32⟩
  | .local _ .vmem, ⟨6, _⟩ => ⟨S256x16384, .bf16⟩
  | .local _ .vmem, ⟨7, _⟩ => ⟨S1x16384, .f32⟩
  | .local _ .vmem, ⟨8, _⟩ => ⟨S1x64, .f32⟩
  | .local _ .vmem, ⟨9, _⟩ => ⟨S1x64, .f32⟩
  | .local _ .vmem, ⟨10, _⟩ => ⟨S1x256, .f32⟩
  | .local _ .vmem, ⟨11, _⟩ => ⟨S1x256, .f32⟩
  | .local _ .vmem, ⟨12, _⟩ => ⟨S12544x256, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S16x256, .f32⟩
  | .local _ .vmem, ⟨17, _⟩ => ⟨S16x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12544x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S4096x256x7x7_S4096x256x49 : S4096x256x7x7.ShapeCasts S4096x256x49
  bitsLt_bf16_f32 : FTy.bits .bf16 < FTy.bits .f32
  slices_S256x32768_S256x16384_0_0 : S256x32768.Slices ![0, 0] S256x16384
  slices_S256x32768_S256x16384_0_16384 : S256x32768.Slices ![0, 16384] S256x16384
  slices_S32768_S16384_0 : S32768.Slices ![0] S16384
  shapeCasts_S16384_S1x16384 : S16384.ShapeCasts S1x16384
  slices_S32768_S16384_16384 : S32768.Slices ![16384] S16384
  shapeCasts_S64_S1x64 : S64.ShapeCasts S1x64
  shapeCasts_S256_S1x256 : S256.ShapeCasts S1x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S16x16384 : S1x16384.Broadcasts S16x16384
  shapeCasts_S16x16384_S16x256x64 : S16x16384.ShapeCasts S16x256x64
  shapeCasts_S16x16384_S16x64x256 : S16x16384.ShapeCasts S16x64x256
  inb_S16x256x49_S16x256x49_0_0_0 : ∀ a, (![0, 0, 0] : Fin 3 → Nat) a + S16x256x49.size a ≤ S16x256x49.size a
  h_S16x256x49 : 0 < S16x256x49.numel
  shapeCasts_S16x256x49_S16x256x49 : S16x256x49.ShapeCasts S16x256x49
  transposes_S16x256x49_p0_2_1_S16x49x256 : S16x256x49.Transposes [0, 2, 1] S16x49x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S16x49x64_S16x49 : S16x49x64.Reduces [2] S16x49
  shapeCasts_S16x49_S16x49x1 : S16x49.ShapeCasts S16x49x1
  broadcasts_S16x49x1_S16x49x64 : S16x49x1.Broadcasts S16x49x64
  shapeCasts_S1x64_S1x1x64 : S1x64.ShapeCasts S1x1x64
  broadcasts_S1x1x64_S16x49x64 : S1x1x64.Broadcasts S16x49x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S16x49x256_S16x49 : S16x49x256.Reduces [2] S16x49
  broadcasts_S16x49x1_S16x49x256 : S16x49x1.Broadcasts S16x49x256
  shapeCasts_S1x256_S1x1x256 : S1x256.ShapeCasts S1x1x256
  broadcasts_S1x1x256_S16x49x256 : S1x1x256.Broadcasts S16x49x256
  shapeCasts_S16x49x256_S16x12544 : S16x49x256.ShapeCasts S16x12544
  inb_S12544x256_S12544x256_0_0 : ∀ a, (![0, 0] : Fin 2 → Nat) a + S12544x256.size a ≤ S12544x256.size a
  h_S12544x256 : 0 < S12544x256.numel
  shapeCasts_S12544x256_S12544x256 : S12544x256.ShapeCasts S12544x256
  broadcasts_S1x256_S16x256 : S1x256.Broadcasts S16x256
  reduces_S16x256_S16 : S16x256.Reduces [1] S16
  shapeCasts_S16_S16x1 : S16.ShapeCasts S16x1
  broadcasts_S16x1_S16x256 : S16x1.Broadcasts S16x256
  dot_S16x256_S256x16384_S16x16384_1_0_0_1_n_n_wf : DotDims.WF S16x256 S256x16384 S16x16384 [1] [0] [0] [1] [] []
  dot_S16x49x256_S16x256x64_S16x49x64_2_1_1_2_0_0_wf : DotDims.WF S16x49x256 S16x256x64 S16x49x64 [2] [1] [1] [2] [0] [0]
  dot_S16x49x64_S16x64x256_S16x49x256_2_1_1_2_0_0_wf : DotDims.WF S16x49x64 S16x64x256 S16x49x256 [2] [1] [1] [2] [0] [0]
  dot_S16x12544_S12544x256_S16x256_1_0_0_1_n_n_wf : DotDims.WF S16x12544 S12544x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S4096x256.size a
  hwx0_0 : ∀ i : grid0.Coords, EltTy.bits .bf16 = 32 ∨ (Rect.block (s := S4096x256) S16x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x49.size a ≤ S4096x256x49.size a
  hwx0_1 : ∀ i : grid0.Coords, EltTy.bits .f32 = 32 ∨ (Rect.block (s := S4096x256x49) S16x256x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16384.size a ≤ S256x16384.size a
  hwx0_2 : ∀ i : grid0.Coords, EltTy.bits .bf16 = 32 ∨ (Rect.block (s := S256x16384) S256x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16384.size a ≤ S256x16384.size a
  hwx0_4 : ∀ i : grid0.Coords, EltTy.bits .bf16 = 32 ∨ (Rect.block (s := S256x16384) S256x16384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16384.size a ≤ S1x16384.size a
  hwx0_5 : ∀ i : grid0.Coords, EltTy.bits .f32 = 32 ∨ (Rect.block (s := S1x16384) S1x16384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12544x256.size a ≤ S12544x256.size a
  hwx0_10 : ∀ i : grid0.Coords, EltTy.bits .bf16 = 32 ∨ (Rect.block (s := S12544x256) S12544x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x256.size a ≤ S4096x256.size a
  hwx0_14 : ∀ i : grid0.Coords, EltTy.bits .f32 = 32 ∨ (Rect.block (s := S4096x256) S16x256.size (cc0_transform_14 i) (hinb0_14 i)).WholeWords (EltTy.packing .f32)

variable [Facts₀]

def dot_S16x256_S256x16384_S16x16384_1_0_0_1_n_n : DotDims S16x256 S256x16384 S16x16384 where
  lhsContracting := [1]
  rhsContracting := [0]
  lhsNonContracting := [0]
  rhsNonContracting := [1]
  lhsBatch := []
  rhsBatch := []
  wf := dot_S16x256_S256x16384_S16x16384_1_0_0_1_n_n_wf
def dot_S16x49x256_S16x256x64_S16x49x64_2_1_1_2_0_0 : DotDims S16x49x256 S16x256x64 S16x49x64 where
  lhsContracting := [2]
  rhsContracting := [1]
  lhsNonContracting := [1]
  rhsNonContracting := [2]
  lhsBatch := [0]
  rhsBatch := [0]
  wf := dot_S16x49x256_S16x256x64_S16x49x64_2_1_1_2_0_0_wf
def dot_S16x49x64_S16x64x256_S16x49x256_2_1_1_2_0_0 : DotDims S16x49x64 S16x64x256 S16x49x256 where
  lhsContracting := [2]
  rhsContracting := [1]
  lhsNonContracting := [1]
  rhsNonContracting := [2]
  lhsBatch := [0]
  rhsBatch := [0]
  wf := dot_S16x49x64_S16x64x256_S16x49x256_2_1_1_2_0_0_wf
def dot_S16x12544_S12544x256_S16x256_1_0_0_1_n_n : DotDims S16x12544 S12544x256 S16x256 where
  lhsContracting := [1]
  rhsContracting := [0]
  lhsNonContracting := [0]
  rhsNonContracting := [1]
  lhsBatch := []
  rhsBatch := []
  wf := dot_S16x12544_S12544x256_S16x256_1_0_0_1_n_n_wf

abbrev win0_0 : Pipeline.Window sig grid0 :=
  Pipeline.Window.ofSpec (Memref.whole main_v1) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x16384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S12544x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S16x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x256x7x7 : Shape := ⟨4, ![4096, 256, 7, 7]⟩
abbrev S256x32768 : Shape := ⟨2, ![256, 32768]⟩
abbrev S32768 : Shape := ⟨1, ![32768]⟩
abbrev S64 : Shape := ⟨1, ![64]⟩
abbrev S256 : Shape := ⟨1, ![256]⟩
abbrev S12544x256 : Shape := ⟨2, ![12544, 256]⟩
abbrev S4096x256x49 : Shape := ⟨3, ![4096, 256, 49]⟩
abbrev S4096x49x256 : Shape := ⟨3, ![4096, 49, 256]⟩
abbrev S4096x32768 : Shape := ⟨2, ![4096, 32768]⟩
abbrev S1x32768 : Shape := ⟨2, ![1, 32768]⟩
abbrev S4096x16384 : Shape := ⟨2, ![4096, 16384]⟩
abbrev S4096x256x64 : Shape := ⟨3, ![4096, 256, 64]⟩
abbrev S4096x64x256 : Shape := ⟨3, ![4096, 64, 256]⟩
abbrev S4096x49x64 : Shape := ⟨3, ![4096, 49, 64]⟩
abbrev S_ : Shape := ⟨0, ![]⟩
abbrev S4096x49 : Shape := ⟨2, ![4096, 49]⟩
abbrev S4096x49x1 : Shape := ⟨3, ![4096, 49, 1]⟩
abbrev S1x1x64 : Shape := ⟨3, ![1, 1, 64]⟩
abbrev S1x1x256 : Shape := ⟨3, ![1, 1, 256]⟩
abbrev S4096x12544 : Shape := ⟨2, ![4096, 12544]⟩
abbrev S1x256 : Shape := ⟨2, ![1, 256]⟩
abbrev S4096 : Shape := ⟨1, ![4096]⟩
abbrev S4096x1 : Shape := ⟨2, ![4096, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256x7x7, .f32⟩
  | .hbm, ⟨2, _⟩ => ⟨S256x32768, .f32⟩
  | .hbm, ⟨3, _⟩ => ⟨S32768, .f32⟩
  | .hbm, ⟨4, _⟩ => ⟨S64, .f32⟩
  | .hbm, ⟨5, _⟩ => ⟨S64, .f32⟩
  | .hbm, ⟨6, _⟩ => ⟨S256, .f32⟩
  | .hbm, ⟨7, _⟩ => ⟨S256, .f32⟩
  | .hbm, ⟨8, _⟩ => ⟨S12544x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4096x256x49, .f32⟩
  | .hbm, ⟨13, _⟩ => ⟨S4096x49x256, .f32⟩
  | .hbm, ⟨14, _⟩ => ⟨S4096x32768, .f32⟩
  | .hbm, ⟨15, _⟩ => ⟨S1x32768, .f32⟩
  | .hbm, ⟨16, _⟩ => ⟨S4096x32768, .f32⟩
  | .hbm, ⟨17, _⟩ => ⟨S4096x32768, .f32⟩
  | .hbm, ⟨18, _⟩ => ⟨S4096x16384, .f32⟩
  | .hbm, ⟨19, _⟩ => ⟨S4096x256x64, .f32⟩
  | .hbm, ⟨20, _⟩ => ⟨S4096x16384, .f32⟩
  | .hbm, ⟨21, _⟩ => ⟨S4096x64x256, .f32⟩
  | .hbm, ⟨22, _⟩ => ⟨S4096x49x64, .f32⟩
  | .hbm, ⟨23, _⟩ => ⟨S_, .f32⟩
  | .hbm, ⟨24, _⟩ => ⟨S4096x49, .f32⟩
  | .hbm, ⟨25, _⟩ => ⟨S4096x49x1, .f32⟩
  | .hbm, ⟨26, _⟩ => ⟨S_, .f32⟩
  | .hbm, ⟨27, _⟩ => ⟨S4096x49x1, .f32⟩
  | .hbm, ⟨28, _⟩ => ⟨S4096x49x1, .f32⟩
  | .hbm, ⟨29, _⟩ => ⟨S4096x49x64, .f32⟩
  | .hbm, ⟨30, _⟩ => ⟨S4096x49x64, .f32⟩
  | .hbm, ⟨31, _⟩ => ⟨S4096x49x64, .f32⟩
  | .hbm, ⟨32, _⟩ => ⟨S_, .f32⟩
  | .hbm, ⟨33, _⟩ => ⟨S4096x49, .f32⟩
  | .hbm, ⟨34, _⟩ => ⟨S4096x49x1, .f32⟩
  | .hbm, ⟨35, _⟩ => ⟨S_, .f32⟩
  | .hbm, ⟨36, _⟩ => ⟨S4096x49x1, .f32⟩
  | .hbm, ⟨37, _⟩ => ⟨S4096x49x1, .f32⟩
  | .hbm, ⟨38, _⟩ => ⟨S4096x49x64, .f32⟩
  | .hbm, ⟨39, _⟩ => ⟨S4096x49x64, .f32⟩
  | .hbm, ⟨40, _⟩ => ⟨S_, .f32⟩
  | .hbm, ⟨41, _⟩ => ⟨S4096x49x1, .f32⟩
  | .hbm, ⟨42, _⟩ => ⟨S4096x49x1, .f32⟩
  | .hbm, ⟨43, _⟩ => ⟨S4096x49x1, .f32⟩
  | .hbm, ⟨44, _⟩ => ⟨S4096x49x64, .f32⟩
  | .hbm, ⟨45, _⟩ => ⟨S4096x49x64, .f32⟩
  | .hbm, ⟨46, _⟩ => ⟨S1x1x64, .f32⟩
  | .hbm, ⟨47, _⟩ => ⟨S4096x49x64, .f32⟩
  | .hbm, ⟨48, _⟩ => ⟨S4096x49x64, .f32⟩
  | .hbm, ⟨49, _⟩ => ⟨S1x1x64, .f32⟩
  | .hbm, ⟨50, _⟩ => ⟨S4096x49x64, .f32⟩
  | .hbm, ⟨51, _⟩ => ⟨S4096x49x64, .f32⟩
  | .hbm, ⟨52, _⟩ => ⟨S_, .f32⟩
  | .hbm, ⟨53, _⟩ => ⟨S4096x49x64, .f32⟩
  | .hbm, ⟨54, _⟩ => ⟨S4096x49x64, .f32⟩
  | .hbm, ⟨55, _⟩ => ⟨S4096x49x256, .f32⟩
  | .hbm, ⟨56, _⟩ => ⟨S_, .f32⟩
  | .hbm, ⟨57, _⟩ => ⟨S4096x49, .f32⟩
  | .hbm, ⟨58, _⟩ => ⟨S4096x49x1, .f32⟩
  | .hbm, ⟨59, _⟩ => ⟨S_, .f32⟩
  | .hbm, ⟨60, _⟩ => ⟨S4096x49x1, .f32⟩
  | .hbm, ⟨61, _⟩ => ⟨S4096x49x1, .f32⟩
  | .hbm, ⟨62, _⟩ => ⟨S4096x49x256, .f32⟩
  | .hbm, ⟨63, _⟩ => ⟨S4096x49x256, .f32⟩
  | .hbm, ⟨64, _⟩ => ⟨S4096x49x256, .f32⟩
  | .hbm, ⟨65, _⟩ => ⟨S_, .f32⟩
  | .hbm, ⟨66, _⟩ => ⟨S4096x49, .f32⟩
  | .hbm, ⟨67, _⟩ => ⟨S4096x49x1, .f32⟩
  | .hbm, ⟨68, _⟩ => ⟨S_, .f32⟩
  | .hbm, ⟨69, _⟩ => ⟨S4096x49x1, .f32⟩
  | .hbm, ⟨70, _⟩ => ⟨S4096x49x1, .f32⟩
  | .hbm, ⟨71, _⟩ => ⟨S4096x49x256, .f32⟩
  | .hbm, ⟨72, _⟩ => ⟨S4096x49x256, .f32⟩
  | .hbm, ⟨73, _⟩ => ⟨S_, .f32⟩
  | .hbm, ⟨74, _⟩ => ⟨S4096x49x1, .f32⟩
  | .hbm, ⟨75, _⟩ => ⟨S4096x49x1, .f32⟩
  | .hbm, ⟨76, _⟩ => ⟨S4096x49x1, .f32⟩
  | .hbm, ⟨77, _⟩ => ⟨S4096x49x256, .f32⟩
  | .hbm, ⟨78, _⟩ => ⟨S4096x49x256, .f32⟩
  | .hbm, ⟨79, _⟩ => ⟨S1x1x256, .f32⟩
  | .hbm, ⟨80, _⟩ => ⟨S4096x49x256, .f32⟩
  | .hbm, ⟨81, _⟩ => ⟨S4096x49x256, .f32⟩
  | .hbm, ⟨82, _⟩ => ⟨S1x1x256, .f32⟩
  | .hbm, ⟨83, _⟩ => ⟨S4096x49x256, .f32⟩
  | .hbm, ⟨84, _⟩ => ⟨S4096x49x256, .f32⟩
  | .hbm, ⟨85, _⟩ => ⟨S_, .f32⟩
  | .hbm, ⟨86, _⟩ => ⟨S4096x49x256, .f32⟩
  | .hbm, ⟨87, _⟩ => ⟨S4096x49x256, .f32⟩
  | .hbm, ⟨88, _⟩ => ⟨S4096x12544, .f32⟩
  | .hbm, ⟨89, _⟩ => ⟨S4096x256, .f32⟩
  | .hbm, ⟨90, _⟩ => ⟨S1x256, .f32⟩
  | .hbm, ⟨91, _⟩ => ⟨S4096x256, .f32⟩
  | .hbm, ⟨92, _⟩ => ⟨S4096x256, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x256, .f32⟩
  | .hbm, ⟨100, _⟩ => ⟨S4096x256, .f32⟩
  | .hbm, ⟨101, _⟩ => ⟨S4096x256, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S4096x256, .f32⟩
  | .hbm, ⟨109, _⟩ => ⟨S4096x256, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x1, .f32⟩
  | .hbm, ⟨114, _⟩ => ⟨S4096x256, .f32⟩
  | .hbm, ⟨115, _⟩ => ⟨S4096x256, .f32⟩
  | .hbm, ⟨116, _⟩ => ⟨S1x256, .f32⟩
  | .hbm, ⟨117, _⟩ => ⟨S4096x256, .f32⟩
  | .hbm, ⟨118, _⟩ => ⟨S4096x256, .f32⟩
  | .hbm, ⟨119, _⟩ => ⟨S1x256, .f32⟩
  | .hbm, ⟨120, _⟩ => ⟨S4096x256, .f32⟩
  | .hbm, ⟨121, _⟩ => ⟨S4096x256, .f32⟩
  | .hbm, ⟨122, _⟩ => ⟨S_, .f32⟩
  | .hbm, ⟨123, _⟩ => ⟨S4096x256, .f32⟩
  | .hbm, ⟨124, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call2_cst : Ref sig .tc := ⟨.hbm, 122, rfl⟩
abbrev main_call2_v0 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  shapeCasts_S4096x256x7x7_S4096x256x49 : S4096x256x7x7.ShapeCasts S4096x256x49
  transposes_S4096x256x49_S4096x49x256_0_2_1 : S4096x256x49.Transposes [0, 2, 1] S4096x49x256
  bcast_S32768_S1x32768_1 : S32768.BroadcastsInDim S1x32768 (![1] : Fin 1 → Fin S1x32768.rank)
  bcast_S1x32768_S4096x32768_0_1 : S1x32768.BroadcastsInDim S4096x32768 (![0, 1] : Fin 2 → Fin S4096x32768.rank)
  slices_S4096x32768_S4096x16384_0_0 : S4096x32768.Slices ![0, 0] S4096x16384
  shapeCasts_S4096x16384_S4096x256x64 : S4096x16384.ShapeCasts S4096x256x64
  slices_S4096x32768_S4096x16384_0_16384 : S4096x32768.Slices ![0, 16384] S4096x16384
  shapeCasts_S4096x16384_S4096x64x256 : S4096x16384.ShapeCasts S4096x64x256
  reducesTo_S4096x49x64_S4096x49_d2 : S4096x49x64.ReducesTo [2] S4096x49
  h_S_ : 0 < S_.numel
  bcast_S4096x49_S4096x49x1_0_1 : S4096x49.BroadcastsInDim S4096x49x1 (![0, 1] : Fin 2 → Fin S4096x49x1.rank)
  bcast_S_S4096x49x1 : S_.BroadcastsInDim S4096x49x1 (![] : Fin 0 → Fin S4096x49x1.rank)
  bcast_S4096x49x1_S4096x49x64_0_1_2 : S4096x49x1.BroadcastsInDim S4096x49x64 (![0, 1, 2] : Fin 3 → Fin S4096x49x64.rank)
  bcast_S64_S1x1x64_2 : S64.BroadcastsInDim S1x1x64 (![2] : Fin 1 → Fin S1x1x64.rank)
  bcast_S1x1x64_S4096x49x64_0_1_2 : S1x1x64.BroadcastsInDim S4096x49x64 (![0, 1, 2] : Fin 3 → Fin S4096x49x64.rank)
  bcast_S_S4096x49x64 : S_.BroadcastsInDim S4096x49x64 (![] : Fin 0 → Fin S4096x49x64.rank)
  reducesTo_S4096x49x256_S4096x49_d2 : S4096x49x256.ReducesTo [2] S4096x49
  bcast_S4096x49x1_S4096x49x256_0_1_2 : S4096x49x1.BroadcastsInDim S4096x49x256 (![0, 1, 2] : Fin 3 → Fin S4096x49x256.rank)
  bcast_S256_S1x1x256_2 : S256.BroadcastsInDim S1x1x256 (![2] : Fin 1 → Fin S1x1x256.rank)
  bcast_S1x1x256_S4096x49x256_0_1_2 : S1x1x256.BroadcastsInDim S4096x49x256 (![0, 1, 2] : Fin 3 → Fin S4096x49x256.rank)
  bcast_S_S4096x49x256 : S_.BroadcastsInDim S4096x49x256 (![] : Fin 0 → Fin S4096x49x256.rank)
  shapeCasts_S4096x49x256_S4096x12544 : S4096x49x256.ShapeCasts S4096x12544
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  dot_S4096x256_S256x32768_S4096x32768_1_0_0_1_n_n_wf : DotDims.WF S4096x256 S256x32768 S4096x32768 [1] [0] [0] [1] [] []
  dot_S4096x49x256_S4096x256x64_S4096x49x64_2_1_1_2_0_0_wf : DotDims.WF S4096x49x256 S4096x256x64 S4096x49x64 [2] [1] [1] [2] [0] [0]
  dot_S4096x49x64_S4096x64x256_S4096x49x256_2_1_1_2_0_0_wf : DotDims.WF S4096x49x64 S4096x64x256 S4096x49x256 [2] [1] [1] [2] [0] [0]
  dot_S4096x12544_S12544x256_S4096x256_1_0_0_1_n_n_wf : DotDims.WF S4096x12544 S12544x256 S4096x256 [1] [0] [0] [1] [] []

variable [Facts₀]

def dot_S4096x256_S256x32768_S4096x32768_1_0_0_1_n_n : DotDims S4096x256 S256x32768 S4096x32768 where
  lhsContracting := [1]
  rhsContracting := [0]
  lhsNonContracting := [0]
  rhsNonContracting := [1]
  lhsBatch := []
  rhsBatch := []
  wf := dot_S4096x256_S256x32768_S4096x32768_1_0_0_1_n_n_wf
def dot_S4096x49x256_S4096x256x64_S4096x49x64_2_1_1_2_0_0 : DotDims S4096x49x256 S4096x256x64 S4096x49x64 where
  lhsContracting := [2]
  rhsContracting := [1]
  lhsNonContracting := [1]
  rhsNonContracting := [2]
  lhsBatch := [0]
  rhsBatch := [0]
  wf := dot_S4096x49x256_S4096x256x64_S4096x49x64_2_1_1_2_0_0_wf
def dot_S4096x49x64_S4096x64x256_S4096x49x256_2_1_1_2_0_0 : DotDims S4096x49x64 S4096x64x256 S4096x49x256 where
  lhsContracting := [2]
  rhsContracting := [1]
  lhsNonContracting := [1]
  rhsNonContracting := [2]
  lhsBatch := [0]
  rhsBatch := [0]
  wf := dot_S4096x49x64_S4096x64x256_S4096x49x256_2_1_1_2_0_0_wf
def dot_S4096x12544_S12544x256_S4096x256_1_0_0_1_n_n : DotDims S4096x12544 S12544x256 S4096x256 where
  lhsContracting := [1]
  rhsContracting := [0]
  lhsNonContracting := [0]
  rhsNonContracting := [1]
  lhsBatch := []
  rhsBatch := []
  wf := dot_S4096x12544_S12544x256_S4096x256_1_0_0_1_n_n_wf

class Facts : Prop extends Facts₀ where

variable [Facts]
-- ==== Proof.Spec.lean ====
/-
  One sample of the dynamic two-layer pointwise convolution head, as a function on the extended reals.

  A sample has a parameter row `pf` (256 entries) and an input `x` (256 channels by 49 positions). The
  parameter row generates the sample's own weights by two affine maps into rows of 16384 = 256 * 64 = 64 * 256
  entries: the first row, read as a 256 x 64 matrix, is the first convolution's weight, the second, read as a
  64 x 256 matrix, the second's. Each convolution contracts the channel axis at every position, and is followed
  by a normalisation over the channel axis (subtract the mean, multiply by the reciprocal square root of the
  variance plus a small constant, scale, shift) and a rectifier. The 49 x 256 result is flattened row by row into
  12544 entries, mapped by a last affine map to 256 entries, normalised and rectified once more.

  Everything is stated entry by entry with sums over `Fin` ranges. Nothing here depends on a tiling of the batch:
  a sample's result is a function of that sample's row and input and of the shared weights alone.
-/
import Idealize.ShloMosaic.PureOps.Ideal
import Idealize.ShloMosaic.Lib.ValueIdx

noncomputable section

namespace Cert.DynConv

open Idealize.ShloMosaic Idealize.ShloMosaic.ValueIdx

/-- The value of the float word for 64, the width of the first normalisation. -/
abbrev w64 : EReal := Ideal.ofBits .f32 0x42800000#32
/-- The value of the float word for 256, the width of the second and third normalisations. -/
abbrev w256 : EReal := Ideal.ofBits .f32 0x43800000#32
/-- The value of the float word added to a variance before the reciprocal square root. -/
abbrev wEps : EReal := Ideal.ofBits .f32 0x3727C5AC#32
/-- The value of the zero word, the rectifier's threshold. -/
abbrev wZero : EReal := Ideal.ofBits .f32 0x00000000#32

/-! ## Normalisation over a row, then the rectifier -/

section norm
variable {D : Nat}

/-- The row's sum divided by the width's value `d`. -/
def mean (d : EReal) (v : Fin D → EReal) : EReal := Ideal.div (∑ k : Fin D, v k) d

/-- The sum of the squared deviations from the mean, divided by `d`. -/
def var (d : EReal) (v : Fin D → EReal) : EReal :=
  Ideal.div (∑ k : Fin D, (v k - mean d v) * (v k - mean d v)) d

/-- Entry `o` of the normalised row scaled by `g`: the deviation from the mean times the reciprocal square root of
    the variance plus the small constant, times `g o`. -/
def normScaled (d : EReal) (v g : Fin D → EReal) (o : Fin D) : EReal :=
  (v o - mean d v) * Ideal.rsqrt (var d v + wEps) * g o

/-- Entry `o` of the normalised row, scaled by `g`, shifted by `b`, then rectified. -/
def normRelu (d : EReal) (v g b : Fin D → EReal) (o : Fin D) : EReal :=
  max (normScaled d v g o + b o) wZero

end norm

/-! ## Positions inside the flattened rows -/

/-- Channel `c` and feature `f` in a row of 16384 read as 256 x 64. -/
def cf (c : Fin 256) (f : Fin 64) : Fin 16384 := ⟨c.val * 64 + f.val, by have := c.isLt; have := f.isLt; omega⟩
/-- Feature `f` and output channel `o` in a row of 16384 read as 64 x 256. -/
def fo (f : Fin 64) (o : Fin 256) : Fin 16384 := ⟨f.val * 256 + o.val, by have := f.isLt; have := o.isLt; omega⟩
/-- The position (row of the 49 x 256 array) of flat entry `j`. -/
def posOf (j : Fin 12544) : Fin 49 := ⟨j.val / 256, by have := j.isLt; omega⟩
/-- The output channel (column of the 49 x 256 array) of flat entry `j`. -/
def chanOf (j : Fin 12544) : Fin 256 := ⟨j.val % 256, by omega⟩
/-- Column `j` of the first half of a row of 32768. -/
def lowHalf (j : Fin 16384) : Fin 32768 := ⟨j.val, by have := j.isLt; omega⟩
/-- Column `j` of the second half of a row of 32768. -/
def highHalf (j : Fin 16384) : Fin 32768 := ⟨16384 + j.val, by have := j.isLt; omega⟩
/-- Spatial position `s` of 49 as a row of the 7 x 7 grid. -/
def gridRow (s : Fin 49) : Fin 7 := ⟨s.val / 7, by have := s.isLt; omega⟩
/-- Spatial position `s` of 49 as a column of the 7 x 7 grid. -/
def gridCol (s : Fin 49) : Fin 7 := ⟨s.val % 7, by omega⟩

/-! ## One sample -/

section sample
variable (pf : Fin 256 → EReal) (x : Fin 256 → Fin 49 → EReal)
  (Win : Fin 256 → Fin 16384 → EReal) (bin : Fin 16384 → EReal)
  (Wout : Fin 256 → Fin 16384 → EReal) (bout : Fin 16384 → EReal)
  (g1 b1 : Fin 64 → EReal) (g2 b2 : Fin 256 → EReal)
  (Wfc : Fin 12544 → Fin 256 → EReal) (bfc g3 b3 : Fin 256 → EReal)

/-- Entry `j` of a generated weight row: the parameter row times column `j` of `W`, plus `b j`. -/
def genRow (W : Fin 256 → Fin 16384 → EReal) (b : Fin 16384 → EReal) (j : Fin 16384) : EReal :=
  (∑ k : Fin 256, pf k * W k j) + b j

/-- The first convolution at position `s`, feature `f`: the channels of `x` at `s` against the generated 256 x 64 weight. -/
def conv1 (s : Fin 49) (f : Fin 64) : EReal :=
  ∑ c : Fin 256, x c s * genRow pf Win bin (cf c f)

/-- The first layer's features: `conv1` normalised over the 64 features and rectified. -/
def feat1 (s : Fin 49) (f : Fin 64) : EReal :=
  normRelu w64 (conv1 pf x Win bin s) g1 b1 f

/-- The second convolution at position `s`, output channel `o`: the features against the generated 64 x 256 weight. -/
def conv2 (s : Fin 49) (o : Fin 256) : EReal :=
  ∑ f : Fin 64, feat1 pf x Win bin g1 b1 s f * genRow pf Wout bout (fo f o)

/-- The second layer's features: `conv2` normalised over the 256 channels and rectified. -/
def feat2 (s : Fin 49) (o : Fin 256) : EReal :=
  normRelu w256 (conv2 pf x Win bin Wout bout g1 b1 s) g2 b2 o

/-- The last affine map: the 49 x 256 features flattened row by row against `Wfc`, plus `bfc`. -/
def fc (o : Fin 256) : EReal :=
  (∑ j : Fin 12544, feat2 pf x Win bin Wout bout g1 b1 g2 b2 (posOf j) (chanOf j) * Wfc j o) + bfc o

/-- The sample's result: `fc` normalised over its 256 entries and rectified. -/
def out (o : Fin 256) : EReal :=
  normRelu w256 (fc pf x Win bin Wout bout g1 b1 g2 b2 Wfc bfc) g3 b3 o

end sample

/-! ## The whole batch -/

/-- The result array of the batch as one function of the twelve argument arrays: row `n` is sample `n`'s `out`.
    The generator's weight and bias are split into their two halves of 16384 columns; the input's 7 x 7 grid
    is read as 49 positions row by row. -/
def G (a0 : FVec Ideal ⟨2, ![4096, 256]⟩ .f32) (a1 : FVec Ideal ⟨4, ![4096, 256, 7, 7]⟩ .f32)
    (a2 : FVec Ideal ⟨2, ![256, 32768]⟩ .f32) (a3 : FVec Ideal ⟨1, ![32768]⟩ .f32)
    (a4 a5 : FVec Ideal ⟨1, ![64]⟩ .f32) (a6 a7 : FVec Ideal ⟨1, ![256]⟩ .f32)
    (a8 : FVec Ideal ⟨2, ![12544, 256]⟩ .f32) (a9 a10 a11 : FVec Ideal ⟨1, ![256]⟩ .f32) :
    FVec Ideal ⟨2, ![4096, 256]⟩ .f32 :=
  fun i => out (fun k => a0 (ix2 (i 0) k)) (fun c s => a1 (ix4 (i 0) c (gridRow s) (gridCol s)))
    (fun k j => a2 (ix2 k (lowHalf j))) (fun j => a3 (ix1 (lowHalf j)))
    (fun k j => a2 (ix2 k (highHalf j))) (fun j => a3 (ix1 (highHalf j)))
    (fun f => a4 (ix1 f)) (fun f => a5 (ix1 f)) (fun o => a6 (ix1 o)) (fun o => a7 (ix1 o))
    (fun j o => a8 (ix2 j o)) (fun o => a9 (ix1 o)) (fun o => a10 (ix1 o)) (fun o => a11 (ix1 o)) (i 1)

end Cert.DynConv

end
-- ==== Proof.RefConv1.lean ====
/-
  The first convolution of the reference, read entry by entry.

  The reference first multiplies the batch of parameter rows by the generator's 256 x 32768 weight and adds the
  generator's bias: entry (n, j) of that product is the sum over k of row n's k-th parameter times the weight at
  (k, j), plus the bias at j. Its first 16384 columns, read row by row as a 256 x 64 matrix, are sample n's first
  convolution weight; its last 16384 columns, read as a 64 x 256 matrix, the second's. Entry (c, f) of the first
  sits at flat position c * 64 + f of the low half, entry (f, o) of the second at flat position f * 256 + o of
  the high half. The input's 7 x 7 grid is flattened row by row to 49 positions and the channel axis moved last,
  so that position s of sample n at channel c is the input at (n, c, s / 7, s % 7). The batched product over the
  channel axis is then the first convolution of the specification, sample by sample.

  The only arithmetic is that of the flattened positions: the quotient and remainder of
  (n * 256 + c) * 64 + f by 16384 are n and c * 64 + f, and likewise for the other two reshapes.
-/
import proofs.«174626_j24970939859163_1_alg».proof.Proof.RefReadPatched
import proofs.«174626_j24970939859163_1_alg».proof.Proof.Spec
import Idealize.ShloMosaic.Lib.ValueIdx
import Idealize.ShloMosaic.PureOps.Ideal

noncomputable section

namespace Cert.ReferenceIdeal.RefValue

open Cert.ReferenceIdeal Cert.ReferenceIdeal.ReadP Cert.DynConv Idealize.ShloMosaic Idealize.ShloMosaic.ValueIdx

/-! ## The positions the layout operations read -/

/-- Entry (n, c, f) of the 256 x 64 reading of the low half is column c * 64 + f of row n. -/
theorem idx_low_ix3 (n : Fin 4096) (c : Fin 256) (f : Fin 64) :
    idx_main_v6 (idx_main_v7 (ix3 n c f)) = ix2 n (lowHalf (cf c f)) :=
  funext fun a => Fin.ext (by
    have hn := n.isLt; have hc := c.isLt; have hf := f.isLt
    match a with
    | ⟨0, _⟩ => show ((n.val * 256 + c.val) * 64 + f.val) / 16384 = n.val; omega
    | ⟨1, _⟩ => show ((n.val * 256 + c.val) * 64 + f.val) % 16384 = c.val * 64 + f.val; omega)

/-- Entry (n, f, o) of the 64 x 256 reading of the high half is column 16384 + f * 256 + o of row n. -/
theorem idx_high_ix3 (n : Fin 4096) (f : Fin 64) (o : Fin 256) :
    idx_main_v8 (idx_main_v9 (ix3 n f o)) = ix2 n (highHalf (fo f o)) :=
  funext fun a => Fin.ext (by
    have hn := n.isLt; have hf := f.isLt; have ho := o.isLt
    match a with
    | ⟨0, _⟩ => show ((n.val * 64 + f.val) * 256 + o.val) / 16384 = n.val; omega
    | ⟨1, _⟩ => show 16384 + ((n.val * 64 + f.val) * 256 + o.val) % 16384 = 16384 + (f.val * 256 + o.val); omega)

/-- The generator's product at (n, j) reads the parameter rows at (n, k). -/
theorem lidx_gen_ix2 (n : Fin 4096) (j : Fin 32768) (k : Fin 256) : lidx_main_v2 (ix2 n j) k = ix2 n k :=
  funext fun a => Fin.ext (by match a with | ⟨0, _⟩ => rfl | ⟨1, _⟩ => rfl)

/-- The generator's product at (n, j) reads the generator's weight at (k, j). -/
theorem ridx_gen_ix2 (n : Fin 4096) (j : Fin 32768) (k : Fin 256) : ridx_main_v2 (ix2 n j) k = ix2 k j :=
  funext fun a => Fin.ext (by match a with | ⟨0, _⟩ => rfl | ⟨1, _⟩ => rfl)

/-- The broadcast bias at (n, j) is the bias at j. -/
theorem idx_bias_ix2 (n : Fin 4096) (j : Fin 32768) : idx_main_v3 (idx_main_v4 (ix2 n j)) = ix1 j :=
  funext fun a => Fin.ext (by match a with | ⟨0, _⟩ => rfl)

/-- Position s of sample n at channel k, after the flattening of the grid and the move of the channel axis, is
    the input at (n, k, s / 7, s % 7). -/
theorem idx_input_ix3 (n : Fin 4096) (s : Fin 49) (f : Fin 64) (k : Fin 256) :
    idx_main_v0 (idx_main_v1 (lidx_main_v10 (ix3 n s f) k)) = ix4 n k (gridRow s) (gridCol s) :=
  funext fun a => Fin.ext (by
    have hn := n.isLt; have hs := s.isLt; have hk := k.isLt
    match a with
    | ⟨0, _⟩ => show ((n.val * 256 + k.val) * 49 + s.val) / 12544 = n.val; omega
    | ⟨1, _⟩ => show ((n.val * 256 + k.val) * 49 + s.val) / 49 % 256 = k.val; omega
    | ⟨2, _⟩ => show ((n.val * 256 + k.val) * 49 + s.val) / 7 % 7 = s.val / 7; omega
    | ⟨3, _⟩ => show ((n.val * 256 + k.val) * 49 + s.val) % 7 = s.val % 7; omega)

/-- The batched product at (n, s, f) reads the generated weight at (n, k, f). -/
theorem ridx_conv1_ix3 (n : Fin 4096) (s : Fin 49) (f : Fin 64) (k : Fin 256) :
    ridx_main_v10 (ix3 n s f) k = ix3 n k f :=
  funext fun a => Fin.ext (by match a with | ⟨0, _⟩ => rfl | ⟨1, _⟩ => rfl | ⟨2, _⟩ => rfl)

/-! ## The generated rows -/

/-- Entry (n, j) of the generator's output: the parameter row of sample n against column j of the generator's
    weight, plus the bias at j. -/
theorem gen_ref (x0 : (⟨S4096x256, .f32⟩ : BufTy).Contents (Elt Ideal)) (x2 : (⟨S256x32768, .f32⟩ : BufTy).Contents (Elt Ideal)) (x3 : (⟨S32768, .f32⟩ : BufTy).Contents (Elt Ideal)) (n : Fin 4096) (j : Fin 32768) :
    val_main_v5 (F := Ideal) x0 x2 x3 (ix2 n j)
      = (∑ k : Fin 256, x0 (ix2 n k) * x2 (ix2 k j)) + x3 (ix1 j) := by
  rw [val_main_v5_apply, val_main_v2_apply, val_main_v4_apply, val_main_v3_apply]
  simp only [lidx_gen_ix2, ridx_gen_ix2, idx_bias_ix2, Ideal.addf_def]

/-- The first generated weight of sample n at (c, f) is the generated row of the low half at c * 64 + f. -/
theorem genIn_ref (x0 : (⟨S4096x256, .f32⟩ : BufTy).Contents (Elt Ideal)) (x2 : (⟨S256x32768, .f32⟩ : BufTy).Contents (Elt Ideal)) (x3 : (⟨S32768, .f32⟩ : BufTy).Contents (Elt Ideal)) (n : Fin 4096) (c : Fin 256) (f : Fin 64) :
    val_main_v7 (F := Ideal) x0 x2 x3 (ix3 n c f)
      = genRow (fun k => x0 (ix2 n k)) (fun k j => x2 (ix2 k (lowHalf j))) (fun j => x3 (ix1 (lowHalf j))) (cf c f) := by
  rw [val_main_v7_apply, val_main_v6_apply, idx_low_ix3, gen_ref]
  rfl

/-- The second generated weight of sample n at (f, o) is the generated row of the high half at f * 256 + o. -/
theorem genOut_ref (x0 : (⟨S4096x256, .f32⟩ : BufTy).Contents (Elt Ideal)) (x2 : (⟨S256x32768, .f32⟩ : BufTy).Contents (Elt Ideal)) (x3 : (⟨S32768, .f32⟩ : BufTy).Contents (Elt Ideal)) (n : Fin 4096) (f : Fin 64) (o : Fin 256) :
    val_main_v9 (F := Ideal) x0 x2 x3 (ix3 n f o)
      = genRow (fun k => x0 (ix2 n k)) (fun k j => x2 (ix2 k (highHalf j))) (fun j => x3 (ix1 (highHalf j))) (fo f o) := by
  rw [val_main_v9_apply, val_main_v8_apply, idx_high_ix3, gen_ref]
  rfl

/-! ## The first convolution -/

/-- The batched product at (n, s, f) is the first convolution of sample n at position s and feature f. -/
theorem conv1_ref (x0 : (⟨S4096x256, .f32⟩ : BufTy).Contents (Elt Ideal)) (x1 : (⟨S4096x256x7x7, .f32⟩ : BufTy).Contents (Elt Ideal)) (x2 : (⟨S256x32768, .f32⟩ : BufTy).Contents (Elt Ideal)) (x3 : (⟨S32768, .f32⟩ : BufTy).Contents (Elt Ideal)) (n : Fin 4096) (s : Fin 49) (f : Fin 64) :
    val_main_v10 (F := Ideal) x0 x1 x2 x3 (ix3 n s f)
      = conv1 (fun k => x0 (ix2 n k)) (fun c s' => x1 (ix4 n c (gridRow s') (gridCol s')))
          (fun k j => x2 (ix2 k (lowHalf j))) (fun j => x3 (ix1 (lowHalf j))) s f := by
  rw [val_main_v10_apply]
  simp only [val_main_v1_apply, val_main_v0_apply, idx_input_ix3, ridx_conv1_ix3, genIn_ref]
  rfl

end Cert.ReferenceIdeal.RefValue

end
-- ==== Proof.RefNorm.lean ====
/-
  The reference's two channel normalisations and the contraction between them, read entry by entry.

  At sample `n` and position `s` the reference normalises the row of 64 features of its first contraction: it sums
  the row from zero and divides by the width's value (the mean), subtracts the mean, squares, sums from zero and
  divides again (the variance), adds the small constant, takes the reciprocal square root, multiplies the
  deviation by it, scales by `x4`, shifts by `x5` and takes the maximum with zero. Every one of these steps acts on
  one entry, or on one row along the last axis, so the stage's value at `(n, s, f)` is `normRelu` of that row.
  The second contraction sums, over the 64 features, the rectified entry times the generated weight at
  `(n, f, o)`; the second normalisation repeats the first over rows of 256 entries with `x6` and `x7`.

  Each lemma below reads one stage (or a short run of stages) at explicit coordinates; the index maps of the
  broadcasts and sums are identified with the coordinate constructors once, axis by axis.
-/
import proofs.«174626_j24970939859163_1_alg».proof.Proof.RefReadPatched
import proofs.«174626_j24970939859163_1_alg».proof.Proof.Spec
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.ReadP Cert.DynConv Idealize.ShloMosaic Idealize.ShloMosaic.ValueIdx

variable (x0 : (⟨S4096x256, .f32⟩ : BufTy).Contents (Elt Ideal)) (x1 : (⟨S4096x256x7x7, .f32⟩ : BufTy).Contents (Elt Ideal))
  (x2 : (⟨S256x32768, .f32⟩ : BufTy).Contents (Elt Ideal)) (x3 : (⟨S32768, .f32⟩ : BufTy).Contents (Elt Ideal))
  (x4 x5 : (⟨S64, .f32⟩ : BufTy).Contents (Elt Ideal)) (x6 x7 : (⟨S256, .f32⟩ : BufTy).Contents (Elt Ideal))

/-! ## The first normalisation: rows of 64 features -/

/-- The first contraction's row of 64 features at sample `n`, position `s`. -/
abbrev convRow1 (n : Fin 4096) (s : Fin 49) : Fin 64 → EReal :=
  fun f => val_main_v10 (F := Ideal) x0 x1 x2 x3 (ix3 n s f)

/-- The row sum's index map appends the summed coordinate. -/
theorem idx_v11_at (n : Fin 4096) (s : Fin 49) (k : Fin 64) : idx_main_v11 (ix2 n s) k = ix3 n s k :=
  funext fun a => Fin.ext (by match a with | ⟨0, _⟩ => rfl | ⟨1, _⟩ => rfl | ⟨2, _⟩ => rfl)
theorem idx_v12_at (n : Fin 4096) (s : Fin 49) (z : Fin 1) : idx_main_v12 (ix3 n s z) = ix2 n s :=
  funext fun a => Fin.ext (by match a with | ⟨0, _⟩ => rfl | ⟨1, _⟩ => rfl)
theorem idx_v15_at (n : Fin 4096) (s : Fin 49) (f : Fin 64) : idx_main_v15 (ix3 n s f) = ix3 n s (0 : Fin 1) :=
  funext fun a => Fin.ext (by match a with | ⟨0, _⟩ => rfl | ⟨1, _⟩ => rfl | ⟨2, _⟩ => rfl)
theorem idx_v18_at (n : Fin 4096) (s : Fin 49) (k : Fin 64) : idx_main_v18 (ix2 n s) k = ix3 n s k :=
  funext fun a => Fin.ext (by match a with | ⟨0, _⟩ => rfl | ⟨1, _⟩ => rfl | ⟨2, _⟩ => rfl)
theorem idx_v19_at (n : Fin 4096) (s : Fin 49) (z : Fin 1) : idx_main_v19 (ix3 n s z) = ix2 n s :=
  funext fun a => Fin.ext (by match a with | ⟨0, _⟩ => rfl | ⟨1, _⟩ => rfl)
theorem idx_v22_at (n : Fin 4096) (s : Fin 49) (f : Fin 64) : idx_main_v22 (ix3 n s f) = ix3 n s (0 : Fin 1) :=
  funext fun a => Fin.ext (by match a with | ⟨0, _⟩ => rfl | ⟨1, _⟩ => rfl | ⟨2, _⟩ => rfl)
theorem idx_v27_at (n : Fin 4096) (s : Fin 49) (f : Fin 64) : idx_main_v27 (ix3 n s f) = ix3 n s (0 : Fin 1) :=
  funext fun a => Fin.ext (by match a with | ⟨0, _⟩ => rfl | ⟨1, _⟩ => rfl | ⟨2, _⟩ => rfl)
/-- The scale's two broadcasts keep the last coordinate only. -/
theorem idx_v30_at (n : Fin 4096) (s : Fin 49) (f : Fin 64) : idx_main_v29 (idx_main_v30 (ix3 n s f)) = ix1 f :=
  funext fun a => Fin.ext (by match a with | ⟨0, _⟩ => rfl)
theorem idx_v33_at (n : Fin 4096) (s : Fin 49) (f : Fin 64) : idx_main_v32 (idx_main_v33 (ix3 n s f)) = ix1 f :=
  funext fun a => Fin.ext (by match a with | ⟨0, _⟩ => rfl)

/-- The row's sum from the zero word. -/
theorem sum_v11 (n : Fin 4096) (s : Fin 49) :
    val_main_v11 (F := Ideal) x0 x1 x2 x3 (ix2 n s) = ∑ k : Fin 64, convRow1 x0 x1 x2 x3 n s k := by
  rw [val_main_v11_apply, val_main_cst_apply, Ideal.ofBits_def, Ideal.ofBits_zero_f32, zero_add]
  simp only [idx_v11_at]

/-- The row's mean. -/
theorem mean_v14 (n : Fin 4096) (s : Fin 49) (z : Fin 1) :
    val_main_v14 (F := Ideal) x0 x1 x2 x3 (ix3 n s z) = mean w64 (convRow1 x0 x1 x2 x3 n s) := by
  show _ = Ideal.div (∑ k : Fin 64, convRow1 x0 x1 x2 x3 n s k) w64
  rw [val_main_v14_apply, val_main_v12_apply, val_main_v13_apply, val_main_cst_0_apply, idx_v12_at, sum_v11,
    Ideal.hostDivf_def, Ideal.ofBits_def]

/-- An entry's deviation from its row's mean (the copy that is squared). -/
theorem dev_v16 (n : Fin 4096) (s : Fin 49) (f : Fin 64) :
    val_main_v16 (F := Ideal) x0 x1 x2 x3 (ix3 n s f)
      = convRow1 x0 x1 x2 x3 n s f - mean w64 (convRow1 x0 x1 x2 x3 n s) := by
  rw [val_main_v16_apply, val_main_v15_apply, idx_v15_at, mean_v14, Ideal.subf_def]

/-- The row's variance. -/
theorem var_v21 (n : Fin 4096) (s : Fin 49) (z : Fin 1) :
    val_main_v21 (F := Ideal) x0 x1 x2 x3 (ix3 n s z) = var w64 (convRow1 x0 x1 x2 x3 n s) := by
  show _ = Ideal.div (∑ k : Fin 64, (convRow1 x0 x1 x2 x3 n s k - mean w64 (convRow1 x0 x1 x2 x3 n s))
    * (convRow1 x0 x1 x2 x3 n s k - mean w64 (convRow1 x0 x1 x2 x3 n s))) w64
  rw [val_main_v21_apply, val_main_v19_apply, val_main_v20_apply, val_main_cst_2_apply, idx_v19_at, val_main_v18_apply,
    val_main_cst_1_apply, Ideal.hostDivf_def]
  simp only [idx_v18_at, val_main_v17_apply, dev_v16, Ideal.mulf_def, Ideal.ofBits_def, Ideal.ofBits_zero_f32, zero_add]

/-- The reciprocal square root of the variance plus the small constant, broadcast along the row. -/
theorem rstd_v27 (n : Fin 4096) (s : Fin 49) (f : Fin 64) :
    val_main_v27 (F := Ideal) x0 x1 x2 x3 (ix3 n s f) = Ideal.rsqrt (var w64 (convRow1 x0 x1 x2 x3 n s) + wEps) := by
  rw [val_main_v27_apply, idx_v27_at, val_main_v26_apply, val_main_v25_apply, var_v21, val_main_v24_apply, val_main_cst_3_apply,
    Ideal.hostUnary_rsqrt_def, Ideal.addf_def, Ideal.ofBits_def]

/-- The deviation that is scaled (the second copy of the subtraction). -/
theorem dev_v23 (n : Fin 4096) (s : Fin 49) (f : Fin 64) :
    val_main_v23 (F := Ideal) x0 x1 x2 x3 (ix3 n s f)
      = convRow1 x0 x1 x2 x3 n s f - mean w64 (convRow1 x0 x1 x2 x3 n s) := by
  rw [val_main_v23_apply, val_main_v22_apply, idx_v22_at, mean_v14, Ideal.subf_def]

/-- The scale at an entry is `x4` at its feature. -/
theorem scale_v30 (n : Fin 4096) (s : Fin 49) (f : Fin 64) : val_main_v30 (F := Ideal) x4 (ix3 n s f) = x4 (ix1 f) := by
  rw [val_main_v30_apply, val_main_v29_apply, idx_v30_at]
/-- The shift at an entry is `x5` at its feature. -/
theorem shift_v33 (n : Fin 4096) (s : Fin 49) (f : Fin 64) : val_main_v33 (F := Ideal) x5 (ix3 n s f) = x5 (ix1 f) := by
  rw [val_main_v33_apply, val_main_v32_apply, idx_v33_at]

/-- The first layer's features: the first contraction's row, normalised over its 64 entries and rectified. -/
theorem feat1_ref (n : Fin 4096) (s : Fin 49) (f : Fin 64) :
    val_main_v35 (F := Ideal) x0 x1 x2 x3 x4 x5 (ix3 n s f)
      = normRelu w64 (fun f' => val_main_v10 (F := Ideal) x0 x1 x2 x3 (ix3 n s f')) (fun f' => x4 (ix1 f'))
          (fun f' => x5 (ix1 f')) f := by
  show _ = max ((convRow1 x0 x1 x2 x3 n s f - mean w64 (convRow1 x0 x1 x2 x3 n s))
    * Ideal.rsqrt (var w64 (convRow1 x0 x1 x2 x3 n s) + wEps) * x4 (ix1 f) + x5 (ix1 f)) wZero
  rw [val_main_v35_apply, val_main_v34_apply, val_main_v31_apply, val_main_v28_apply, dev_v23, rstd_v27, scale_v30, shift_v33,
    val_main_call0_v0_apply, val_main_call0_cst_apply, Ideal.maximumf_def, Ideal.addf_def, Ideal.mulf_def, Ideal.mulf_def,
    Ideal.ofBits_def]

/-! ## The second contraction -/

/-- The contraction's left index keeps sample and position and runs over the features. -/
theorem lidx_v36_at (n : Fin 4096) (s : Fin 49) (o : Fin 256) (k : Fin 64) : lidx_main_v36 (ix3 n s o) k = ix3 n s k :=
  funext fun a => Fin.ext (by match a with | ⟨0, _⟩ => rfl | ⟨1, _⟩ => rfl | ⟨2, _⟩ => rfl)
/-- Its right index keeps sample and output channel and runs over the features. -/
theorem ridx_v36_at (n : Fin 4096) (s : Fin 49) (o : Fin 256) (k : Fin 64) : ridx_main_v36 (ix3 n s o) k = ix3 n k o :=
  funext fun a => Fin.ext (by match a with | ⟨0, _⟩ => rfl | ⟨1, _⟩ => rfl | ⟨2, _⟩ => rfl)

/-- The second contraction at sample `n`, position `s`, output channel `o`: the features against the generated weight. -/
theorem conv2_ref_step (n : Fin 4096) (s : Fin 49) (o : Fin 256) :
    val_main_v36 (F := Ideal) x0 x1 x2 x3 x4 x5 (ix3 n s o)
      = ∑ f : Fin 64, val_main_v35 (F := Ideal) x0 x1 x2 x3 x4 x5 (ix3 n s f) * val_main_v9 (F := Ideal) x0 x2 x3 (ix3 n f o) := by
  rw [val_main_v36_apply]
  simp only [lidx_v36_at, ridx_v36_at]

/-! ## The second normalisation: rows of 256 channels -/

/-- The second contraction's row of 256 channels at sample `n`, position `s`. -/
abbrev convRow2 (n : Fin 4096) (s : Fin 49) : Fin 256 → EReal :=
  fun o => val_main_v36 (F := Ideal) x0 x1 x2 x3 x4 x5 (ix3 n s o)

theorem idx_v37_at (n : Fin 4096) (s : Fin 49) (k : Fin 256) : idx_main_v37 (ix2 n s) k = ix3 n s k :=
  funext fun a => Fin.ext (by match a with | ⟨0, _⟩ => rfl | ⟨1, _⟩ => rfl | ⟨2, _⟩ => rfl)
theorem idx_v38_at (n : Fin 4096) (s : Fin 49) (z : Fin 1) : idx_main_v38 (ix3 n s z) = ix2 n s :=
  funext fun a => Fin.ext (by match a with | ⟨0, _⟩ => rfl | ⟨1, _⟩ => rfl)
theorem idx_v41_at (n : Fin 4096) (s : Fin 49) (o : Fin 256) : idx_main_v41 (ix3 n s o) = ix3 n s (0 : Fin 1) :=
  funext fun a => Fin.ext (by match a with | ⟨0, _⟩ => rfl | ⟨1, _⟩ => rfl | ⟨2, _⟩ => rfl)
theorem idx_v44_at (n : Fin 4096) (s : Fin 49) (k : Fin 256) : idx_main_v44 (ix2 n s) k = ix3 n s k :=
  funext fun a => Fin.ext (by match a with | ⟨0, _⟩ => rfl | ⟨1, _⟩ => rfl | ⟨2, _⟩ => rfl)
theorem idx_v45_at (n : Fin 4096) (s : Fin 49) (z : Fin 1) : idx_main_v45 (ix3 n s z) = ix2 n s :=
  funext fun a => Fin.ext (by match a with | ⟨0, _⟩ => rfl | ⟨1, _⟩ => rfl)
theorem idx_v48_at (n : Fin 4096) (s : Fin 49) (o : Fin 256) : idx_main_v48 (ix3 n s o) = ix3 n s (0 : Fin 1) :=
  funext fun a => Fin.ext (by match a with | ⟨0, _⟩ => rfl | ⟨1, _⟩ => rfl | ⟨2, _⟩ => rfl)
theorem idx_v53_at (n : Fin 4096) (s : Fin 49) (o : Fin 256) : idx_main_v53 (ix3 n s o) = ix3 n s (0 : Fin 1) :=
  funext fun a => Fin.ext (by match a with | ⟨0, _⟩ => rfl | ⟨1, _⟩ => rfl | ⟨2, _⟩ => rfl)
theorem idx_v56_at (n : Fin 4096) (s : Fin 49) (o : Fin 256) : idx_main_v55 (idx_main_v56 (ix3 n s o)) = ix1 o :=
  funext fun a => Fin.ext (by match a with | ⟨0, _⟩ => rfl)
theorem idx_v59_at (n : Fin 4096) (s : Fin 49) (o : Fin 256) : idx_main_v58 (idx_main_v59 (ix3 n s o)) = ix1 o :=
  funext fun a => Fin.ext (by match a with | ⟨0, _⟩ => rfl)

/-- The row's sum from the zero word. -/
theorem sum_v37 (n : Fin 4096) (s : Fin 49) :
    val_main_v37 (F := Ideal) x0 x1 x2 x3 x4 x5 (ix2 n s) = ∑ k : Fin 256, convRow2 x0 x1 x2 x3 x4 x5 n s k := by
  rw [val_main_v37_apply, val_main_cst_4_apply, Ideal.ofBits_def, Ideal.ofBits_zero_f32, zero_add]
  simp only [idx_v37_at]

/-- The row's mean. -/
theorem mean_v40 (n : Fin 4096) (s : Fin 49) (z : Fin 1) :
    val_main_v40 (F := Ideal) x0 x1 x2 x3 x4 x5 (ix3 n s z) = mean w256 (convRow2 x0 x1 x2 x3 x4 x5 n s) := by
  show _ = Ideal.div (∑ k : Fin 256, convRow2 x0 x1 x2 x3 x4 x5 n s k) w256
  rw [val_main_v40_apply, val_main_v38_apply, val_main_v39_apply, val_main_cst_5_apply, idx_v38_at, sum_v37,
    Ideal.hostDivf_def, Ideal.ofBits_def]

/-- An entry's deviation from its row's mean (the copy that is squared). -/
theorem dev_v42 (n : Fin 4096) (s : Fin 49) (o : Fin 256) :
    val_main_v42 (F := Ideal) x0 x1 x2 x3 x4 x5 (ix3 n s o)
      = convRow2 x0 x1 x2 x3 x4 x5 n s o - mean w256 (convRow2 x0 x1 x2 x3 x4 x5 n s) := by
  rw [val_main_v42_apply, val_main_v41_apply, idx_v41_at, mean_v40, Ideal.subf_def]

/-- The row's variance. -/
theorem var_v47 (n : Fin 4096) (s : Fin 49) (z : Fin 1) :
    val_main_v47 (F := Ideal) x0 x1 x2 x3 x4 x5 (ix3 n s z) = var w256 (convRow2 x0 x1 x2 x3 x4 x5 n s) := by
  show _ = Ideal.div (∑ k : Fin 256, (convRow2 x0 x1 x2 x3 x4 x5 n s k - mean w256 (convRow2 x0 x1 x2 x3 x4 x5 n s))
    * (convRow2 x0 x1 x2 x3 x4 x5 n s k - mean w256 (convRow2 x0 x1 x2 x3 x4 x5 n s))) w256
  rw [val_main_v47_apply, val_main_v45_apply, val_main_v46_apply, val_main_cst_7_apply, idx_v45_at, val_main_v44_apply,
    val_main_cst_6_apply, Ideal.hostDivf_def]
  simp only [idx_v44_at, val_main_v43_apply, dev_v42, Ideal.mulf_def, Ideal.ofBits_def, Ideal.ofBits_zero_f32, zero_add]

/-- The reciprocal square root of the variance plus the small constant, broadcast along the row. -/
theorem rstd_v53 (n : Fin 4096) (s : Fin 49) (o : Fin 256) :
    val_main_v53 (F := Ideal) x0 x1 x2 x3 x4 x5 (ix3 n s o)
      = Ideal.rsqrt (var w256 (convRow2 x0 x1 x2 x3 x4 x5 n s) + wEps) := by
  rw [val_main_v53_apply, idx_v53_at, val_main_v52_apply, val_main_v51_apply, var_v47, val_main_v50_apply, val_main_cst_8_apply,
    Ideal.hostUnary_rsqrt_def, Ideal.addf_def, Ideal.ofBits_def]

/-- The deviation that is scaled (the second copy of the subtraction). -/
theorem dev_v49 (n : Fin 4096) (s : Fin 49) (o : Fin 256) :
    val_main_v49 (F := Ideal) x0 x1 x2 x3 x4 x5 (ix3 n s o)
      = convRow2 x0 x1 x2 x3 x4 x5 n s o - mean w256 (convRow2 x0 x1 x2 x3 x4 x5 n s) := by
  rw [val_main_v49_apply, val_main_v48_apply, idx_v48_at, mean_v40, Ideal.subf_def]

/-- The scale at an entry is `x6` at its channel. -/
theorem scale_v56 (n : Fin 4096) (s : Fin 49) (o : Fin 256) : val_main_v56 (F := Ideal) x6 (ix3 n s o) = x6 (ix1 o) := by
  rw [val_main_v56_apply, val_main_v55_apply, idx_v56_at]
/-- The shift at an entry is `x7` at its channel. -/
theorem shift_v59 (n : Fin 4096) (s : Fin 49) (o : Fin 256) : val_main_v59 (F := Ideal) x7 (ix3 n s o) = x7 (ix1 o) := by
  rw [val_main_v59_apply, val_main_v58_apply, idx_v59_at]

/-- The second layer's features: the second contraction's row, normalised over its 256 entries and rectified. -/
theorem feat2_ref (n : Fin 4096) (s : Fin 49) (o : Fin 256) :
    val_main_v61 (F := Ideal) x0 x1 x2 x3 x4 x5 x6 x7 (ix3 n s o)
      = normRelu w256 (fun o' => val_main_v36 (F := Ideal) x0 x1 x2 x3 x4 x5 (ix3 n s o')) (fun o' => x6 (ix1 o'))
          (fun o' => x7 (ix1 o')) o := by
  show _ = max ((convRow2 x0 x1 x2 x3 x4 x5 n s o - mean w256 (convRow2 x0 x1 x2 x3 x4 x5 n s))
    * Ideal.rsqrt (var w256 (convRow2 x0 x1 x2 x3 x4 x5 n s) + wEps) * x6 (ix1 o) + x7 (ix1 o)) wZero
  rw [val_main_v61_apply, val_main_v60_apply, val_main_v57_apply, val_main_v54_apply, dev_v49, rstd_v53, scale_v56, shift_v59,
    val_main_call1_v0_apply, val_main_call1_cst_apply, Ideal.maximumf_def, Ideal.addf_def, Ideal.mulf_def, Ideal.mulf_def,
    Ideal.ofBits_def]

end Cert.ReferenceIdeal.RefValue

end
-- ==== Proof.RefFc.lean ====
/-
  The last affine map and the last normalisation of the reference, read entry by entry.

  The reference flattens the 49 x 256 feature array of every sample row by row into 12544 entries (flat entry `j`
  is position `j / 256`, channel `j % 256`), contracts the flat row with the 12544 x 256 weight and adds the bias
  row: entry `(n, o)` is `∑ j, feat (n, j / 256, j % 256) * W (j, o) + b o`.

  It then normalises every row of the 4096 x 256 result over its 256 entries. The row's sum divided by the value of
  256 is the mean; the sum of the squared deviations from the mean divided by the same value is the variance; an
  entry of the result is its deviation times the reciprocal square root of the variance plus the small constant,
  times the scale, plus the shift, and then the larger of that and zero. Every sum of the reference starts from the
  zero word, whose value is `0`, so the starting value drops out.

  The only arithmetic is in the flattening: `(n * 12544 + j) / 12544 = n`, `(n * 12544 + j) / 256 % 49 = j / 256` and
  `(n * 12544 + j) % 256 = j % 256` for `j < 12544`. All the other index maps copy coordinates.
-/
import proofs.«174626_j24970939859163_1_alg».proof.Proof.RefReadPatched
import proofs.«174626_j24970939859163_1_alg».proof.Proof.Spec
import Idealize.ShloMosaic.Lib.ValueIdx
import Idealize.ShloMosaic.PureOps.Ideal
import Idealize.ShloMosaic.PureOps.Ideal.Laws
import Mathlib.Algebra.BigOperators.Group.Finset.Basic

noncomputable section

namespace Cert.ReferenceIdeal.RefValue

open Cert.ReferenceIdeal Cert.ReferenceIdeal.ReadP Cert.DynConv Idealize.ShloMosaic Idealize.ShloMosaic.ValueIdx

/-! ## The index maps at coordinates -/

/-- Flat entry `j` of sample `n`'s row is position `j / 256`, channel `j % 256` of the sample's 49 x 256 array. -/
theorem fc_flat_idx (n : Fin 4096) (o : Fin 256) (j : Fin 12544) :
    idx_main_v62 (lidx_main_v63 (ix2 n o) j) = ix3 n (posOf j) (chanOf j) :=
  funext fun a => Fin.ext (by
    have hj : j.val < 12544 := j.isLt
    match a with
    | ⟨0, _⟩ => show (n.val * 12544 + j.val) / 12544 = n.val; omega
    | ⟨1, _⟩ => show (n.val * 12544 + j.val) / 256 % 49 = j.val / 256; omega
    | ⟨2, _⟩ => show (n.val * 12544 + j.val) % 256 = j.val % 256; omega)

/-- The contraction reads the weight at row `j`, column `o`. -/
theorem fc_weight_idx (n : Fin 4096) (o : Fin 256) (j : Fin 12544) :
    ridx_main_v63 (ix2 n o) j = ix2 j o :=
  funext fun a => Fin.ext (by match a with | ⟨0, _⟩ => rfl | ⟨1, _⟩ => rfl)

/-- The bias row broadcast over the batch is read at the column. -/
theorem fc_bias_idx (n : Fin 4096) (o : Fin 256) :
    idx_main_v64 (idx_main_v65 (ix2 n o)) = ix1 o :=
  funext fun a => Fin.ext (by match a with | ⟨0, _⟩ => rfl)

/-- The first row sum runs over the entries of row `n`. -/
theorem out_sum_idx (n : Fin 4096) (k : Fin 256) :
    idx_main_v67 (idx_main_v68 (ix2 n (0 : Fin 1))) k = ix2 n k :=
  funext fun a => Fin.ext (by match a with | ⟨0, _⟩ => rfl | ⟨1, _⟩ => rfl)

/-- The second row sum runs over the entries of row `n`. -/
theorem out_sqsum_idx (n : Fin 4096) (k : Fin 256) :
    idx_main_v74 (idx_main_v75 (ix2 n (0 : Fin 1))) k = ix2 n k :=
  funext fun a => Fin.ext (by match a with | ⟨0, _⟩ => rfl | ⟨1, _⟩ => rfl)

/-- The mean's column broadcast along the row (inside the variance) is read at the row. -/
theorem out_col_idx_var (n : Fin 4096) (o : Fin 256) :
    idx_main_v71 (ix2 n o) = ix2 n (0 : Fin 1) :=
  funext fun a => Fin.ext (by match a with | ⟨0, _⟩ => rfl | ⟨1, _⟩ => rfl)

/-- The mean's column broadcast along the row (in the deviation) is read at the row. -/
theorem out_col_idx_dev (n : Fin 4096) (o : Fin 256) :
    idx_main_v78 (ix2 n o) = ix2 n (0 : Fin 1) :=
  funext fun a => Fin.ext (by match a with | ⟨0, _⟩ => rfl | ⟨1, _⟩ => rfl)

/-- The reciprocal square root's column broadcast along the row is read at the row. -/
theorem out_col_idx_rsqrt (n : Fin 4096) (o : Fin 256) :
    idx_main_v83 (ix2 n o) = ix2 n (0 : Fin 1) :=
  funext fun a => Fin.ext (by match a with | ⟨0, _⟩ => rfl | ⟨1, _⟩ => rfl)

/-- The scale row broadcast over the batch is read at the column. -/
theorem out_scale_idx (n : Fin 4096) (o : Fin 256) :
    idx_main_v85 (idx_main_v86 (ix2 n o)) = ix1 o :=
  funext fun a => Fin.ext (by match a with | ⟨0, _⟩ => rfl)

/-- The shift row broadcast over the batch is read at the column. -/
theorem out_shift_idx (n : Fin 4096) (o : Fin 256) :
    idx_main_v88 (idx_main_v89 (ix2 n o)) = ix1 o :=
  funext fun a => Fin.ext (by match a with | ⟨0, _⟩ => rfl)

variable (x0 : (⟨S4096x256, .f32⟩ : BufTy).Contents (Elt Ideal)) (x1 : (⟨S4096x256x7x7, .f32⟩ : BufTy).Contents (Elt Ideal))
  (x2 : (⟨S256x32768, .f32⟩ : BufTy).Contents (Elt Ideal)) (x3 : (⟨S32768, .f32⟩ : BufTy).Contents (Elt Ideal))
  (x4 x5 : (⟨S64, .f32⟩ : BufTy).Contents (Elt Ideal)) (x6 x7 : (⟨S256, .f32⟩ : BufTy).Contents (Elt Ideal))
  (x8 : (⟨S12544x256, .f32⟩ : BufTy).Contents (Elt Ideal)) (x9 x10 x11 : (⟨S256, .f32⟩ : BufTy).Contents (Elt Ideal))

/-! ## The last affine map -/

/-- Entry `(n, o)` of the affine map: the flattened features of sample `n` against column `o` of the weight, plus
    the bias at `o`. -/
theorem fc_ref_step (n : Fin 4096) (o : Fin 256) :
    val_main_v66 (F := Ideal) x0 x1 x2 x3 x4 x5 x6 x7 x8 x9 (ix2 n o)
      = (∑ j : Fin 12544, val_main_v61 (F := Ideal) x0 x1 x2 x3 x4 x5 x6 x7 (ix3 n (posOf j) (chanOf j)) * x8 (ix2 j o)) + x9 (ix1 o) := by
  rw [val_main_v66_apply, val_main_v63_apply, val_main_v65_apply, val_main_v64_apply, fc_bias_idx n o, Ideal.addf_def]
  refine congrArg (· + x9 (ix1 o)) (Finset.sum_congr rfl fun j _ => ?_)
  rw [val_main_v62_apply, fc_flat_idx n o j, fc_weight_idx n o j]

/-! ## The last normalisation -/

/-- The mean column at row `n` is the mean of row `n` of the affine map's result. -/
theorem out_mean_ref (n : Fin 4096) :
    val_main_v70 (F := Ideal) x0 x1 x2 x3 x4 x5 x6 x7 x8 x9 (ix2 n (0 : Fin 1))
      = Cert.DynConv.mean w256 (fun o' => val_main_v66 (F := Ideal) x0 x1 x2 x3 x4 x5 x6 x7 x8 x9 (ix2 n o')) := by
  rw [val_main_v70_apply, val_main_v68_apply, val_main_v67_apply, val_main_v69_apply, val_main_cst_10_apply,
    val_main_cst_9_apply, Ideal.hostDivf_def, Ideal.ofBits_def, Ideal.ofBits_def, Ideal.ofBits_zero_f32, zero_add]
  unfold Cert.DynConv.mean
  refine congrArg (Ideal.div · w256) (Finset.sum_congr rfl fun k _ => ?_)
  rw [out_sum_idx n k]

/-- The variance column at row `n` is the variance of row `n` of the affine map's result. -/
theorem out_var_ref (n : Fin 4096) :
    val_main_v77 (F := Ideal) x0 x1 x2 x3 x4 x5 x6 x7 x8 x9 (ix2 n (0 : Fin 1))
      = Cert.DynConv.var w256 (fun o' => val_main_v66 (F := Ideal) x0 x1 x2 x3 x4 x5 x6 x7 x8 x9 (ix2 n o')) := by
  rw [val_main_v77_apply, val_main_v75_apply, val_main_v74_apply, val_main_v76_apply, val_main_cst_12_apply,
    val_main_cst_11_apply, Ideal.hostDivf_def, Ideal.ofBits_def, Ideal.ofBits_def, Ideal.ofBits_zero_f32, zero_add]
  unfold Cert.DynConv.var
  refine congrArg (Ideal.div · w256) (Finset.sum_congr rfl fun k _ => ?_)
  rw [out_sqsum_idx n k, val_main_v73_apply, val_main_v72_apply, val_main_v71_apply, out_col_idx_var n k,
    out_mean_ref, Ideal.mulf_def, Ideal.subf_def]

/-- Entry `(n, o)` of the reference's result: row `n` of the affine map's result normalised over its 256 entries,
    scaled, shifted and rectified. -/
theorem out_ref (n : Fin 4096) (o : Fin 256) :
    val_main_v91 (F := Ideal) x0 x1 x2 x3 x4 x5 x6 x7 x8 x9 x10 x11 (ix2 n o)
      = normRelu w256 (fun o' => val_main_v66 (F := Ideal) x0 x1 x2 x3 x4 x5 x6 x7 x8 x9 (ix2 n o'))
          (fun o' => x10 (ix1 o')) (fun o' => x11 (ix1 o')) o := by
  rw [val_main_v91_apply, val_main_v90_apply, val_main_v87_apply, val_main_v84_apply, val_main_v79_apply,
    val_main_v78_apply, out_col_idx_dev n o, out_mean_ref,
    val_main_v83_apply, out_col_idx_rsqrt n o, val_main_v82_apply, val_main_v81_apply, out_var_ref,
    val_main_v80_apply, val_main_cst_13_apply,
    val_main_v86_apply, val_main_v85_apply, out_scale_idx n o,
    val_main_v89_apply, val_main_v88_apply, out_shift_idx n o,
    val_main_call2_v0_apply, val_main_call2_cst_apply,
    Ideal.maximumf_def, Ideal.addf_def, Ideal.mulf_def, Ideal.mulf_def, Ideal.subf_def, Ideal.addf_def,
    Ideal.hostUnary_rsqrt_def, Ideal.ofBits_def, Ideal.ofBits_def]
  rfl

end Cert.ReferenceIdeal.RefValue

end
-- ==== Proof.RefValue.lean ====
/-
  The reference program's result array is the batch function `G` of its twelve arguments.

  Row `n` of the reference's result is computed from row `n` of the parameter array and sample `n` of the input by
  the same chain as the sample function: the two generated weight rows are the two column halves of one matrix
  product plus one bias row, each convolution is one batched product, each normalisation runs over the last axis,
  and the flattening before the last affine map is row by row. The stage lemmas say this one link at a time; here
  they are chained from the result back to the arguments.
-/
import proofs.«174626_j24970939859163_1_alg».proof.Proof.RefConv1
import proofs.«174626_j24970939859163_1_alg».proof.Proof.RefNorm
import proofs.«174626_j24970939859163_1_alg».proof.Proof.RefFc

noncomputable section

namespace Cert.ReferenceIdeal.RefValue

open Cert.ReferenceIdeal Cert.ReferenceIdeal.ReadP Cert.DynConv Idealize.ShloMosaic Idealize.ShloMosaic.ValueIdx

/-- The reference's last stage, as a whole array, is `G` of the arguments. -/
theorem ref_eq_G (x0 : (⟨S4096x256, .f32⟩ : BufTy).Contents (Elt Ideal)) (x1 : (⟨S4096x256x7x7, .f32⟩ : BufTy).Contents (Elt Ideal))
    (x2 : (⟨S256x32768, .f32⟩ : BufTy).Contents (Elt Ideal)) (x3 : (⟨S32768, .f32⟩ : BufTy).Contents (Elt Ideal))
    (x4 x5 : (⟨S64, .f32⟩ : BufTy).Contents (Elt Ideal)) (x6 x7 : (⟨S256, .f32⟩ : BufTy).Contents (Elt Ideal))
    (x8 : (⟨S12544x256, .f32⟩ : BufTy).Contents (Elt Ideal)) (x9 x10 x11 : (⟨S256, .f32⟩ : BufTy).Contents (Elt Ideal)) :
    val_main_v91 (F := Ideal) x0 x1 x2 x3 x4 x5 x6 x7 x8 x9 x10 x11 = G x0 x1 x2 x3 x4 x5 x6 x7 x8 x9 x10 x11 := by
  funext i
  obtain ⟨n, o, rfl⟩ : ∃ (n : Fin 4096) (o : Fin 256), i = ix2 n o := ⟨i 0, i 1, eq_ix2 i⟩
  rw [out_ref]
  show _ = out (fun k => x0 (ix2 n k)) (fun c s => x1 (ix4 n c (gridRow s) (gridCol s)))
    (fun k j => x2 (ix2 k (lowHalf j))) (fun j => x3 (ix1 (lowHalf j)))
    (fun k j => x2 (ix2 k (highHalf j))) (fun j => x3 (ix1 (highHalf j)))
    (fun f => x4 (ix1 f)) (fun f => x5 (ix1 f)) (fun o => x6 (ix1 o)) (fun o => x7 (ix1 o))
    (fun j o => x8 (ix2 j o)) (fun o => x9 (ix1 o)) (fun o => x10 (ix1 o)) (fun o => x11 (ix1 o)) o
  unfold out
  refine congrArg (fun v => normRelu w256 v _ _ o) (funext fun o' => ?_)
  rw [fc_ref_step]
  unfold fc
  refine congrArg (· + _) (Finset.sum_congr rfl fun j _ => congrArg (· * _) ?_)
  rw [feat2_ref]
  unfold feat2
  refine congrArg (fun v => normRelu w256 v _ _ (chanOf j)) (funext fun o'' => ?_)
  rw [conv2_ref_step]
  unfold conv2
  refine Finset.sum_congr rfl fun f _ => congrArg₂ (· * ·) ?_ (genOut_ref x0 x2 x3 n f o'')
  rw [feat1_ref]
  unfold feat1
  exact congrArg (fun v => normRelu w64 v _ _ f) (funext fun f' => conv1_ref x0 x1 x2 x3 n (posOf j) f')

end Cert.ReferenceIdeal.RefValue

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibBatchDot.lean ====
/-
  A batched contraction (for each batch index, rows x inner times inner x columns) read at an index.
  At the extended reals the matrix unit's product into a zero accumulator and the host's dot product are both the
  sum, over the inner index k, of the left operand's entry (batch, row, k) times the right operand's entry
  (batch, k, column). Generic in the four extents and in the dimension record, of which only its six lists matter.
-/
import Idealize.ShloMosaic.Lib.ValueIdx
import Idealize.ShloMosaic.PureOps.Ideal.Laws

noncomputable section

namespace Cert.BatchDot

open Idealize.ShloMosaic Idealize.ShloMosaic.ValueIdx

variable {B S K N : Nat}

/-- The dimension numbers of a batched matrix product: the left operand's last axis is contracted with the right
    operand's middle axis, and the first axis of both is the batch axis. -/
structure IsBatched (D : DotDims (⟨3, ![B, S, K]⟩ : Shape) (⟨3, ![B, K, N]⟩ : Shape) (⟨3, ![B, S, N]⟩ : Shape)) : Prop where
  lhsC : D.lhsContracting = [2]
  rhsC : D.rhsContracting = [1]
  lhsN : D.lhsNonContracting = [1]
  rhsN : D.rhsNonContracting = [2]
  lhsB : D.lhsBatch = [0]
  rhsB : D.rhsBatch = [0]

/-- The record whose six lists are the batched product's, over any proof that they are well formed. -/
abbrev lit (wf : DotDims.WF (⟨3, ![B, S, K]⟩ : Shape) (⟨3, ![B, K, N]⟩ : Shape) (⟨3, ![B, S, N]⟩ : Shape) [2] [1] [1] [2] [0] [0]) :
    DotDims (⟨3, ![B, S, K]⟩ : Shape) (⟨3, ![B, K, N]⟩ : Shape) (⟨3, ![B, S, N]⟩ : Shape) :=
  ⟨[2], [1], [1], [2], [0], [0], wf⟩

section literal
variable (wf : DotDims.WF (⟨3, ![B, S, K]⟩ : Shape) (⟨3, ![B, K, N]⟩ : Shape) (⟨3, ![B, S, N]⟩ : Shape) [2] [1] [1] [2] [0] [0])
  (j : (⟨3, ![B, S, N]⟩ : Shape).Idx) (q : (lit wf).contr.Idx)

/-- The left operand is read on its batch axis at the output's batch index. -/
theorem lhs_batch : ((lit wf).lhsIdx j q 0).val = (j 0).val := by
  unfold DotDims.lhsIdx
  rw [dif_pos (show (0 : Fin 3) ∈ ([0] : List (Fin 3)) by decide)]
  rfl

/-- The left operand is read on its row axis at the output's row. -/
theorem lhs_row : ((lit wf).lhsIdx j q 1).val = (j 1).val := by
  unfold DotDims.lhsIdx
  rw [dif_neg (show ¬(1 : Fin 3) ∈ ([0] : List (Fin 3)) by decide), dif_pos (show (1 : Fin 3) ∈ ([1] : List (Fin 3)) by decide)]
  rfl

/-- The left operand is read on its inner axis at the contraction index. -/
theorem lhs_inner : ((lit wf).lhsIdx j q 2).val = (q ⟨0, Nat.one_pos⟩).val :=
  (lit wf).lhsIdx_val_of_single rfl j q

/-- The right operand is read on its batch axis at the output's batch index. -/
theorem rhs_batch : ((lit wf).rhsIdx j q 0).val = (j 0).val := by
  unfold DotDims.rhsIdx
  rw [dif_pos (show (0 : Fin 3) ∈ ([0] : List (Fin 3)) by decide)]
  rfl

/-- The right operand is read on its inner axis at the contraction index. -/
theorem rhs_inner : ((lit wf).rhsIdx j q 1).val = (q ⟨0, Nat.one_pos⟩).val :=
  (lit wf).rhsIdx_val_of_single rfl j q

/-- The right operand is read on its column axis at the output's column. -/
theorem rhs_col : ((lit wf).rhsIdx j q 2).val = (j 2).val := by
  unfold DotDims.rhsIdx
  rw [dif_neg (show ¬(2 : Fin 3) ∈ ([0] : List (Fin 3)) by decide), dif_pos (show (2 : Fin 3) ∈ ([2] : List (Fin 3)) by decide)]
  rfl

end literal

/-- The literal record's contraction sum re-indexed by the inner coordinate. -/
theorem sum_contr_lit (wf : DotDims.WF (⟨3, ![B, S, K]⟩ : Shape) (⟨3, ![B, K, N]⟩ : Shape) (⟨3, ![B, S, N]⟩ : Shape) [2] [1] [1] [2] [0] [0])
    (L : (⟨3, ![B, S, K]⟩ : Shape).Idx → EReal) (R : (⟨3, ![B, K, N]⟩ : Shape).Idx → EReal)
    (j : (⟨3, ![B, S, N]⟩ : Shape).Idx) :
    (∑ q : (lit wf).contr.Idx, L ((lit wf).lhsIdx j q) * R ((lit wf).rhsIdx j q))
      = ∑ k : Fin K, L (ix3 (j 0) (j 1) k) * R (ix3 (j 0) k (j 2)) := by
  rw [← Equiv.sum_comp (contrEquiv1 (lit wf) K rfl rfl).symm]
  refine Finset.sum_congr rfl fun k _ => ?_
  have hk := contrEquiv1_symm_val (lit wf) K rfl rfl k
  have el : (lit wf).lhsIdx j ((contrEquiv1 (lit wf) K rfl rfl).symm k) = ix3 (j 0) (j 1) k :=
    funext fun a => Fin.ext (by
      match a with
      | ⟨0, _⟩ => exact lhs_batch wf j _
      | ⟨1, _⟩ => exact lhs_row wf j _
      | ⟨2, _⟩ => exact (lhs_inner wf j _).trans hk)
  have er : (lit wf).rhsIdx j ((contrEquiv1 (lit wf) K rfl rfl).symm k) = ix3 (j 0) k (j 2) :=
    funext fun a => Fin.ext (by
      match a with
      | ⟨0, _⟩ => exact rhs_batch wf j _
      | ⟨1, _⟩ => exact (rhs_inner wf j _).trans hk
      | ⟨2, _⟩ => exact rhs_col wf j _)
  exact congrArg₂ (· * ·) (congrArg L el) (congrArg R er)

/-- The contraction's sum re-indexed by the inner coordinate: the left operand is read at (batch, row, k), the right
    at (batch, k, column). -/
theorem sum_contr (D : DotDims (⟨3, ![B, S, K]⟩ : Shape) (⟨3, ![B, K, N]⟩ : Shape) (⟨3, ![B, S, N]⟩ : Shape)) (hD : IsBatched D)
    (L : (⟨3, ![B, S, K]⟩ : Shape).Idx → EReal) (R : (⟨3, ![B, K, N]⟩ : Shape).Idx → EReal)
    (j : (⟨3, ![B, S, N]⟩ : Shape).Idx) :
    (∑ q : D.contr.Idx, L (D.lhsIdx j q) * R (D.rhsIdx j q))
      = ∑ k : Fin K, L (ix3 (j 0) (j 1) k) * R (ix3 (j 0) k (j 2)) := by
  obtain ⟨lc, rc, ln, rn, lb, rb, wf⟩ := D
  obtain ⟨h1, h2, h3, h4, h5, h6⟩ := hD
  dsimp only at h1 h2 h3 h4 h5 h6
  subst h1 h2 h3 h4 h5 h6
  exact sum_contr_lit wf L R j

/-- The matrix unit's batched product into the zero accumulator, at an output index: the plain sum of products. -/
theorem matmul_zero_apply {φ₁ φ₂ : FTy} (D : DotDims (⟨3, ![B, S, K]⟩ : Shape) (⟨3, ![B, K, N]⟩ : Shape) (⟨3, ![B, S, N]⟩ : Shape))
    (hD : IsBatched D) (prec : Option ContractPrecision)
    (L : FVec Ideal (⟨3, ![B, S, K]⟩ : Shape) φ₁) (R : FVec Ideal (⟨3, ![B, K, N]⟩ : Shape) φ₂) (j : (⟨3, ![B, S, N]⟩ : Shape).Idx) :
    FloatOps.matmul D prec L R (constant (⟨3, ![B, S, N]⟩ : Shape) .f32 0x00000000#32) j
      = ∑ k : Fin K, L (ix3 (j 0) (j 1) k) * R (ix3 (j 0) k (j 2)) :=
  (Ideal.matmul_constant_zero_apply D prec L R j).trans (sum_contr D hD L R j)

/-- The host's batched dot product at an output index: the same sum. -/
theorem dotGeneral_apply {φ₁ φ₂ : FTy} (D : DotDims (⟨3, ![B, S, K]⟩ : Shape) (⟨3, ![B, K, N]⟩ : Shape) (⟨3, ![B, S, N]⟩ : Shape))
    (hD : IsBatched D) (prec : Option ContractPrecision) (sched : HostSchedule)
    (L : FVec Ideal (⟨3, ![B, S, K]⟩ : Shape) φ₁) (R : FVec Ideal (⟨3, ![B, K, N]⟩ : Shape) φ₂) (j : (⟨3, ![B, S, N]⟩ : Shape).Idx) :
    FloatOps.dotGeneral D prec sched L R j
      = ∑ k : Fin K, L (ix3 (j 0) (j 1) k) * R (ix3 (j 0) k (j 2)) :=
  (Ideal.dotGeneral_apply D prec sched L R j).trans (sum_contr D hD L R j)

end Cert.BatchDot

end
-- ==== Proof.KerConv.lean ====
/-
  The two generated weight rows and the first convolution, as the kernel body computes them on a block of 16 samples.

  The parameter block (16 x 256) times a 256 x 16384 generator matrix, plus that matrix's bias row, gives for each of
  the 16 samples a row of 16384 entries. Read as 256 x 64 it is the sample's first weight, read as 64 x 256 its second.
  The first convolution transposes the sample's input to positions x channels and contracts the channels against the
  first weight, one matrix product per sample.
-/
import proofs.«174626_j24970939859163_1_alg».proof.Proof.Gen.KernelIdeal.Skeleton
import proofs.«174626_j24970939859163_1_alg».proof.Proof.Spec
import proofs.«174626_j24970939859163_1_alg».proof.Proof.LibPlainDot
import proofs.«174626_j24970939859163_1_alg».proof.Proof.LibBatchDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen Cert.DynConv Idealize.ShloMosaic Idealize.ShloMosaic.ValueIdx

/-- Row `r`, column `j` of the parameter block times a generator matrix plus its bias row: entry `j` of sample
    `r`'s generated row. -/
theorem gen_apply (x0 : FVec Ideal S16x256 .bf16) (W : FVec Ideal S256x16384 .bf16) (b : FVec Ideal S1x16384 .f32)
    (r : Fin 16) (j : Fin 16384) :
    addf (matmul dot_S16x256_S256x16384_S16x16384_1_0_0_1_n_n none x0 W (constant (F := Ideal) S16x16384 .f32 0x00000000#32))
        (broadcastTo S16x16384 b broadcasts_S1x16384_S16x16384) (ix2 r j)
      = genRow (fun k => x0 (ix2 r k)) (fun k j' => W (ix2 k j')) (fun j' => b (ix2 0 j')) j :=
  congrFun (Cert.PlainDot.matmul_add_row_eq (M := 16) (K := 256) (N := 16384) none x0 W b broadcasts_S1x16384_S16x16384) (ix2 r j)

/-- The second generated row read as 64 x 256: entry (f, o) of sample `r`. -/
theorem pay2_apply (x0 : Vec Ideal S16x256 .bf16) (x10 : Vec Ideal S256x16384 .bf16) (x13 : Vec Ideal S1x16384 .f32)
    (r : Fin 16) (f : Fin 64) (o : Fin 256) :
    k0_pay2 (F := Ideal) x0 x10 x13 (ix3 r f o)
      = genRow (fun k => x0 (ix2 r k)) (fun k j => x10 (ix2 k j)) (fun j => x13 (ix2 0 j)) (fo f o) := by
  unfold k0_pay2 k0_pay1
  simp only [shapeCast_self]
  rw [shapeCast_apply _ shapeCasts_S16x16384_S16x64x256 (ix3 r f o) (ix2 r (fo f o)) (by
    rewrite [Shape.rowMajor_val_two, Shape.rowMajor_val_three]
    show r.val * 16384 + (f.val * 256 + o.val) = (r.val * 64 + f.val) * 256 + o.val
    omega)]
  exact gen_apply x0 x10 x13 r (fo f o)

/-- The first convolution on the block: position `s`, feature `f` of sample `r`. -/
theorem pay3_apply (x0 : Vec Ideal S16x256 .bf16) (x2 : Vec Ideal S256x16384 .bf16) (x3 : Vec Ideal S1x16384 .f32)
    (x1 : Vec Ideal S16x256x49 .f32) (r : Fin 16) (s : Fin 49) (f : Fin 64) :
    k0_pay3 (F := Ideal) x0 x2 x3 x1 (ix3 r s f)
      = conv1 (fun k => x0 (ix2 r k)) (fun c s' => x1 (ix3 r c s')) (fun k j => x2 (ix2 k j)) (fun j => x3 (ix2 0 j)) s f := by
  unfold k0_pay3 k0_pay1
  simp only [shapeCast_self]
  refine (Cert.BatchDot.matmul_zero_apply (B := 16) (S := 49) (K := 256) (N := 64)
    dot_S16x49x256_S16x256x64_S16x49x64_2_1_1_2_0_0 ⟨rfl, rfl, rfl, rfl, rfl, rfl⟩ none _ _ (ix3 r s f)).trans ?_
  unfold conv1
  refine Finset.sum_congr rfl fun c _ => ?_
  refine congrArg₂ (· * ·) ?_ ?_
  · exact transpose_ix3_021_apply x1 transposes_S16x256x49_p0_2_1_S16x49x256 r s c
  · have e : ∀ v : FVec Ideal S16x16384 .f32,
        (truncf .bf16 (shapeCast S16x256x64 v shapeCasts_S16x16384_S16x256x64) bitsLt_bf16_f32 : FVec Ideal S16x256x64 .bf16) (ix3 r c f)
          = v (ix2 r (cf c f)) := fun v =>
      shapeCast_apply v shapeCasts_S16x16384_S16x256x64 (ix3 r c f) (ix2 r (cf c f)) (by
        rewrite [Shape.rowMajor_val_two, Shape.rowMajor_val_three]
        show r.val * 16384 + (c.val * 64 + f.val) = (r.val * 256 + c.val) * 64 + f.val
        omega)
    exact (e _).trans (gen_apply x0 x2 x3 r (cf c f))

end Cert.KernelIdeal.KerValue

end
-- ==== Proof.KerNorm.lean ====
/-
  The first normalisation of the kernel body, and the second convolution with its normalisation, read entry by entry.

  Over the 64 features of the first convolution's result at a sample r and a position s the body takes the mean
  (the lane sum divided by the value of the word for 64, kept with a unit last axis) and the sum of the squared
  deviations from that mean. It then divides that sum by 64, adds the small word, takes the reciprocal square root,
  multiplies the deviation by it, scales, shifts and rectifies: this is the specification's normalised and rectified
  row. The rectified row is contracted with the sample's own 64 x 256 weight over the 64 features by the matrix unit
  into a zero accumulator, and the 256 channels of the result are normalised in the same way up to the scale.
-/
import proofs.«174626_j24970939859163_1_alg».proof.Proof.Gen.KernelIdeal.Skeleton
import proofs.«174626_j24970939859163_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«174626_j24970939859163_1_alg».proof.Proof.LibBatchDot

noncomputable section

namespace Cert.KernelIdeal.KerValue

open Cert.KernelIdeal Cert.KernelIdeal.Gen Cert.DynConv Idealize.ShloMosaic Idealize.ShloMosaic.ValueIdx

/-! ## The layout steps of a normalisation over the last axis, at explicit coordinates -/

section layout
variable {a b c : ℕ}

/-- A lane sum over the last axis of an a x b x c array, read at (r, s), is the sum over that axis's coordinates. -/
theorem laneSum_last (v : FVec Ideal ⟨3, ![a, b, c]⟩ .f32) (h : Shape.Reduces ⟨3, ![a, b, c]⟩ [2] ⟨2, ![a, b]⟩)
    (hφ : FKind.Formats .f32) (hacc : (0x00000000#32 : BitVec 32) = FKind.add.neutral .f32 hφ) (r : Fin a) (s : Fin b) :
    multiReduction .add [2] ⟨2, ![a, b]⟩ v 0x00000000#32 h hφ hacc (ix2 r s) = ∑ k : Fin c, v (ix3 r s k) :=
  (Ideal.multiReduction_add_single v 0x00000000#32 h hφ hacc (ix2 r s)).trans
    (Finset.sum_congr rfl fun k _ => congrArg v (funext fun ax => Fin.ext (by
      match ax with
      | ⟨0, _⟩ => rfl
      | ⟨1, _⟩ => rfl
      | ⟨2, _⟩ => rfl)))

/-- An a x b array cast to a x b x 1 reads, at (r, s, u), the operand at (r, s). -/
theorem shapeCast_ab_ab1_apply {α : Type} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_three, Shape.rowMajor_val_two]
    show r.val * b + s.val = (r.val * b + s.val) * 1 + u.val
    rw [hu, Nat.mul_one, Nat.add_zero])

/-- An a x b x 1 array broadcast to a x b x c reads, at (r, s, k), the operand at (r, s, 0). -/
theorem broadcastTo_ab1_abc_apply {α : Type} (x : (⟨3, ![a, b, 1]⟩ : Shape).Idx → α)
    (h : (⟨3, ![a, b, 1]⟩ : Shape).Broadcasts ⟨3, ![a, b, c]⟩) (r : Fin a) (s : Fin b) (k : Fin c) :
    broadcastTo ⟨3, ![a, b, c]⟩ x h (ix3 r s k) = x (ix3 r s (0 : Fin 1)) := by
  refine broadcastTo_apply x h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

end layout

/-! ## The mean and the sum of squared deviations over the 64 features -/

theorem pay6_apply (x0 : Vec Ideal S16x256 .bf16) (x2 : Vec Ideal S256x16384 .bf16) (x3 : Vec Ideal S1x16384 .f32)
    (x1 : Vec Ideal S16x256x49 .f32) (r : Fin 16) (s : Fin 49) :
    k0_pay6 (F := Ideal) x0 x2 x3 x1 (ix3 r s 0)
      = mean w64 (fun f => k0_pay3 (F := Ideal) x0 x2 x3 x1 (ix3 r s f)) := by
  unfold k0_pay6
  generalize k0_pay3 (F := Ideal) x0 x2 x3 x1 = v23
  show Ideal.div (shapeCast S16x49x1 _ shapeCasts_S16x49_S16x49x1 (ix3 r s 0)) w64 = _
  rw [shapeCast_ab_ab1_apply]
  exact congrArg (fun t => Ideal.div t w64) (laneSum_last v23 _ _ _ r s)

theorem pay7_apply (x0 : Vec Ideal S16x256 .bf16) (x2 : Vec Ideal S256x16384 .bf16) (x3 : Vec Ideal S1x16384 .f32)
    (x1 : Vec Ideal S16x256x49 .f32) (r : Fin 16) (s : Fin 49) :
    k0_pay7 (F := Ideal) x0 x2 x3 x1 (ix2 r s)
      = ∑ f : Fin 64, (k0_pay3 (F := Ideal) x0 x2 x3 x1 (ix3 r s f) - mean w64 (fun f' => k0_pay3 (F := Ideal) x0 x2 x3 x1 (ix3 r s f')))
                    * (k0_pay3 (F := Ideal) x0 x2 x3 x1 (ix3 r s f) - mean w64 (fun f' => k0_pay3 (F := Ideal) x0 x2 x3 x1 (ix3 r s f'))) := by
  unfold k0_pay7
  refine (laneSum_last _ _ _ _ r s).trans (Finset.sum_congr rfl fun f _ => ?_)
  show (k0_pay3 (F := Ideal) x0 x2 x3 x1 (ix3 r s f)
          - broadcastTo S16x49x64 (k0_pay6 (F := Ideal) x0 x2 x3 x1) broadcasts_S16x49x1_S16x49x64 (ix3 r s f))
        * (k0_pay3 (F := Ideal) x0 x2 x3 x1 (ix3 r s f)
          - broadcastTo S16x49x64 (k0_pay6 (F := Ideal) x0 x2 x3 x1) broadcasts_S16x49x1_S16x49x64 (ix3 r s f)) = _
  rw [broadcastTo_ab1_abc_apply, pay6_apply]

/-! ## A normalisation over the last axis, in the body's arrangement -/

section core
variable {a b c : ℕ}

/-- A 1 x 1 x c array broadcast to a x b x c reads, at (r, s, k), the operand at (0, 0, k). -/
theorem broadcastTo_11c_abc_apply {α : Type} (x : (⟨3, ![1, 1, c]⟩ : Shape).Idx → α)
    (h : (⟨3, ![1, 1, c]⟩ : Shape).Broadcasts ⟨3, ![a, b, c]⟩) (r : Fin a) (s : Fin b) (k : Fin c) :
    broadcastTo ⟨3, ![a, b, c]⟩ x h (ix3 r s k) = x (ix3 (0 : Fin 1) (0 : Fin 1) k) := by
  refine broadcastTo_apply x h (ix3 r s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A row of c entries, given as 1 x c, cast to 1 x 1 x c and broadcast to a x b x c, reads at (r, s, k) the row's entry k. -/
theorem rowBroadcast_apply {α : Type} (g : (⟨2, ![1, c]⟩ : Shape).Idx → α)
    (hs : (⟨2, ![1, c]⟩ : Shape).ShapeCasts ⟨3, ![1, 1, c]⟩) (hb : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ g hs) hb (ix3 r s k) = g (ix2 (0 : Fin 1) k) := by
  rw [broadcastTo_11c_abc_apply, shapeCast_ab_1ab_apply]

/-- The lane sum over the last axis divided by the value of the word d, kept with a unit last axis. -/
def meanKeep (hr : Shape.Reduces ⟨3, ![a, b, c]⟩ [2] ⟨2, ![a, b]⟩) (hs : (⟨2, ![a, b]⟩ : Shape).ShapeCasts ⟨3, ![a, b, 1]⟩)
    (d : BitVec 32) (x : FVec Ideal ⟨3, ![a, b, c]⟩ .f32) : FVec Ideal ⟨3, ![a, b, 1]⟩ .f32 :=
  divf (shapeCast ⟨3, ![a, b, 1]⟩ (multiReduction .add [2] ⟨2, ![a, b]⟩ x 0x00000000#32 hr (.inl rfl) rfl) hs)
    (broadcast ⟨3, ![a, b, 1]⟩ (Scalar.ofBits .f32 d))

theorem meanKeep_apply (hr : Shape.Reduces ⟨3, ![a, b, c]⟩ [2] ⟨2, ![a, b]⟩) (hs : (⟨2, ![a, b]⟩ : Shape).ShapeCasts ⟨3, ![a, b, 1]⟩)
    (d : BitVec 32) (x : FVec Ideal ⟨3, ![a, b, c]⟩ .f32) (r : Fin a) (s : Fin b) :
    meanKeep hr hs d x (ix3 r s 0) = mean (Ideal.ofBits .f32 d) (fun k => x (ix3 r s k)) := by
  unfold meanKeep
  show Ideal.div (shapeCast ⟨3, ![a, b, 1]⟩ _ hs (ix3 r s 0)) (Ideal.ofBits .f32 d) = _
  rw [shapeCast_ab_ab1_apply]
  exact congrArg (fun t => Ideal.div t (Ideal.ofBits .f32 d)) (laneSum_last x _ _ _ r s)

/-- The lane sum over the last axis of the squared deviations from a kept mean m. -/
def sqDev (hr : Shape.Reduces ⟨3, ![a, b, c]⟩ [2] ⟨2, ![a, b]⟩) (hb : (⟨3, ![a, b, 1]⟩ : Shape).Broadcasts ⟨3, ![a, b, c]⟩)
    (x : FVec Ideal ⟨3, ![a, b, c]⟩ .f32) (m : FVec Ideal ⟨3, ![a, b, 1]⟩ .f32) : FVec Ideal ⟨2, ![a, b]⟩ .f32 :=
  multiReduction .add [2] ⟨2, ![a, b]⟩
    (mulf (subf x (broadcastTo ⟨3, ![a, b, c]⟩ m hb)) (subf x (broadcastTo ⟨3, ![a, b, c]⟩ m hb))) 0x00000000#32 hr (.inl rfl) rfl

theorem sqDev_apply (hr : Shape.Reduces ⟨3, ![a, b, c]⟩ [2] ⟨2, ![a, b]⟩) (hb : (⟨3, ![a, b, 1]⟩ : Shape).Broadcasts ⟨3, ![a, b, c]⟩)
    (x : FVec Ideal ⟨3, ![a, b, c]⟩ .f32) (m : FVec Ideal ⟨3, ![a, b, 1]⟩ .f32) (r : Fin a) (s : Fin b) :
    sqDev hr hb x m (ix2 r s)
      = ∑ k : Fin c, (x (ix3 r s k) - m (ix3 r s 0)) * (x (ix3 r s k) - m (ix3 r s 0)) := by
  unfold sqDev
  refine (laneSum_last _ _ _ _ r s).trans (Finset.sum_congr rfl fun k _ => ?_)
  show (x (ix3 r s k) - broadcastTo ⟨3, ![a, b, c]⟩ m hb (ix3 r s k))
        * (x (ix3 r s k) - broadcastTo ⟨3, ![a, b, c]⟩ m hb (ix3 r s k)) = _
  rw [broadcastTo_ab1_abc_apply]

/-- The deviation from a kept mean m times the reciprocal square root of a sum q of squares divided by the value of d,
    plus the value of e. -/
def normCore (hs : (⟨2, ![a, b]⟩ : Shape).ShapeCasts ⟨3, ![a, b, 1]⟩) (hb : (⟨3, ![a, b, 1]⟩ : Shape).Broadcasts ⟨3, ![a, b, c]⟩)
    (d e : BitVec 32) (x : FVec Ideal ⟨3, ![a, b, c]⟩ .f32) (m : FVec Ideal ⟨3, ![a, b, 1]⟩ .f32)
    (q : FVec Ideal ⟨2, ![a, b]⟩ .f32) : FVec Ideal ⟨3, ![a, b, c]⟩ .f32 :=
  mulf (subf x (broadcastTo ⟨3, ![a, b, c]⟩ m hb))
    (broadcastTo ⟨3, ![a, b, c]⟩
      (rsqrt (addf (divf (shapeCast ⟨3, ![a, b, 1]⟩ q hs) (broadcast ⟨3, ![a, b, 1]⟩ (Scalar.ofBits .f32 d)))
        (broadcast ⟨3, ![a, b, 1]⟩ (Scalar.ofBits .f32 e)))) hb)

theorem normCore_apply (hs : (⟨2, ![a, b]⟩ : Shape).ShapeCasts ⟨3, ![a, b, 1]⟩) (hb : (⟨3, ![a, b, 1]⟩ : Shape).Broadcasts ⟨3, ![a, b, c]⟩)
    (d e : BitVec 32) (x : FVec Ideal ⟨3, ![a, b, c]⟩ .f32) (m : FVec Ideal ⟨3, ![a, b, 1]⟩ .f32)
    (q : FVec Ideal ⟨2, ![a, b]⟩ .f32) (r : Fin a) (s : Fin b) (k : Fin c) :
    normCore hs hb d e x m q (ix3 r s k)
      = (x (ix3 r s k) - m (ix3 r s 0))
          * Ideal.rsqrt (Ideal.div (q (ix2 r s)) (Ideal.ofBits .f32 d) + Ideal.ofBits .f32 e) := by
  unfold normCore
  show (x (ix3 r s k) - broadcastTo ⟨3, ![a, b, c]⟩ m hb (ix3 r s k))
        * broadcastTo ⟨3, ![a, b, c]⟩ _ hb (ix3 r s k) = _
  rw [broadcastTo_ab1_abc_apply, broadcastTo_ab1_abc_apply]
  show _ * Ideal.rsqrt (Ideal.div (shapeCast ⟨3, ![a, b, 1]⟩ q hs (ix3 r s 0)) (Ideal.ofBits .f32 d) + Ideal.ofBits .f32 e) = _
  rw [shapeCast_ab_ab1_apply]

/-- With the kept mean and the sum of squares those of the row, the core times a scale is the specification's
    normalised and scaled entry. -/
theorem normCore_mul_eq (hs : (⟨2, ![a, b]⟩ : Shape).ShapeCasts ⟨3, ![a, b, 1]⟩) (hb : (⟨3, ![a, b, 1]⟩ : Shape).Broadcasts ⟨3, ![a, b, c]⟩)
    (d : BitVec 32) (x : FVec Ideal ⟨3, ![a, b, c]⟩ .f32) (m : FVec Ideal ⟨3, ![a, b, 1]⟩ .f32)
    (q : FVec Ideal ⟨2, ![a, b]⟩ .f32) (g : Fin c → EReal) (r : Fin a) (s : Fin b) (k : Fin c)
    (hm : m (ix3 r s 0) = mean (Ideal.ofBits .f32 d) (fun k' => x (ix3 r s k')))
    (hq : q (ix2 r s) = ∑ k' : Fin c, (x (ix3 r s k') - mean (Ideal.ofBits .f32 d) (fun k'' => x (ix3 r s k'')))
                          * (x (ix3 r s k') - mean (Ideal.ofBits .f32 d) (fun k'' => x (ix3 r s k'')))) :
    normCore hs hb d 0x3727C5AC#32 x m q (ix3 r s k) * g k
      = normScaled (Ideal.ofBits .f32 d) (fun k' => x (ix3 r s k')) g k := by
  rw [normCore_apply, hm, hq]
  rfl

end core

/-! ## The second convolution with its normalisation -/

/-- The first normalisation finished, scaled, shifted and rectified, as the body arranges it. -/
def bodyFeat (v23 : FVec Ideal S16x49x64 .f32) (v25 v27 : FVec Ideal S1x64 .f32) (v31 : FVec Ideal S16x49x1 .f32)
    (v35 : FVec Ideal S16x49 .f32) : FVec Ideal S16x49x64 .f32 :=
  maximumf
    (addf
      (mulf (normCore shapeCasts_S16x49_S16x49x1 broadcasts_S16x49x1_S16x49x64 0x42800000#32 0x3727C5AC#32 v23 v31 v35)
        (broadcastTo S16x49x64 (shapeCast S1x1x64 v25 shapeCasts_S1x64_S1x1x64) broadcasts_S1x1x64_S16x49x64))
      (broadcastTo S16x49x64 (shapeCast S1x1x64 v27 shapeCasts_S1x64_S1x1x64) broadcasts_S1x1x64_S16x49x64))
    (broadcast S16x49x64 (Scalar.ofBits .f32 0x00000000#32))

/-- With the kept mean and the sum of squared deviations those of the row, it is the specification's normalised and
    rectified row. -/
theorem bodyFeat_apply (v23 : FVec Ideal S16x49x64 .f32) (v25 v27 : FVec Ideal S1x64 .f32) (v31 : FVec Ideal S16x49x1 .f32)
    (v35 : FVec Ideal S16x49 .f32) (r : Fin 16) (s : Fin 49) (f : Fin 64)
    (h31 : v31 (ix3 r s 0) = mean w64 (fun f' => v23 (ix3 r s f')))
    (h35 : v35 (ix2 r s) = ∑ f' : Fin 64, (v23 (ix3 r s f') - mean w64 (fun f'' => v23 (ix3 r s f'')))
                              * (v23 (ix3 r s f') - mean w64 (fun f'' => v23 (ix3 r s f'')))) :
    bodyFeat v23 v25 v27 v31 v35 (ix3 r s f)
      = normRelu w64 (fun f' => v23 (ix3 r s f')) (fun f' => v25 (ix2 0 f')) (fun f' => v27 (ix2 0 f')) f := by
  unfold bodyFeat
  show max (normCore shapeCasts_S16x49_S16x49x1 broadcasts_S16x49x1_S16x49x64 0x42800000#32 0x3727C5AC#32 v23 v31 v35 (ix3 r s f)
              * broadcastTo S16x49x64 (shapeCast S1x1x64 v25 shapeCasts_S1x64_S1x1x64) broadcasts_S1x1x64_S16x49x64 (ix3 r s f)
            + broadcastTo S16x49x64 (shapeCast S1x1x64 v27 shapeCasts_S1x64_S1x1x64) broadcasts_S1x1x64_S16x49x64 (ix3 r s f))
          wZero = _
  rw [rowBroadcast_apply, rowBroadcast_apply]
  exact congrArg (fun t => max (t + v27 (ix2 0 f)) wZero)
    (normCore_mul_eq shapeCasts_S16x49_S16x49x1 broadcasts_S16x49x1_S16x49x64 0x42800000#32 v23 v31 v35
      (fun f' => v25 (ix2 0 f')) r s f h31 h35)

/-- The rectified features contracted with the sample's own 64 x 256 weight by the matrix unit, into a zero accumulator. -/
def bodyConv (v17 : FVec Ideal S16x64x256 .f32) (feat : FVec Ideal S16x49x64 .f32) : FVec Ideal S16x49x256 .f32 :=
  matmul dot_S16x49x64_S16x64x256_S16x49x256_2_1_1_2_0_0 none (truncf .bf16 feat bitsLt_bf16_f32)
    (truncf .bf16 v17 bitsLt_bf16_f32) (constant S16x49x256 .f32 0x00000000#32)

theorem bodyConv_apply (v17 : FVec Ideal S16x64x256 .f32) (feat : FVec Ideal S16x49x64 .f32) (r : Fin 16) (s : Fin 49) (o : Fin 256) :
    bodyConv v17 feat (ix3 r s o) = ∑ f : Fin 64, feat (ix3 r s f) * v17 (ix3 r f o) :=
  Cert.BatchDot.matmul_zero_apply dot_S16x49x64_S16x64x256_S16x49x256_2_1_1_2_0_0 ⟨rfl, rfl, rfl, rfl, rfl, rfl⟩ none
    (truncf .bf16 feat bitsLt_bf16_f32) (truncf .bf16 v17 bitsLt_bf16_f32) (ix3 r s o)

/-- The normalisation of the 256 channels up to the scale, as the body arranges it. -/
def bodyNorm2 (v56 : FVec Ideal S16x49x256 .f32) (v57 : FVec Ideal S1x256 .f32) : FVec Ideal S16x49x256 .f32 :=
  mulf
    (normCore shapeCasts_S16x49_S16x49x1 broadcasts_S16x49x1_S16x49x256 0x43800000#32 0x3727C5AC#32 v56
      (meanKeep reduces_S16x49x256_S16x49 shapeCasts_S16x49_S16x49x1 0x43800000#32 v56)
      (sqDev reduces_S16x49x256_S16x49 broadcasts_S16x49x1_S16x49x256 v56
        (meanKeep reduces_S16x49x256_S16x49 shapeCasts_S16x49_S16x49x1 0x43800000#32 v56)))
    (broadcastTo S16x49x256 (shapeCast S1x1x256 (shapeCast S1x256 v57 shapeCasts_S1x256_S1x256) shapeCasts_S1x256_S1x1x256)
      broadcasts_S1x1x256_S16x49x256)

theorem bodyNorm2_apply (v56 : FVec Ideal S16x49x256 .f32) (v57 : FVec Ideal S1x256 .f32) (r : Fin 16) (s : Fin 49) (o : Fin 256) :
    bodyNorm2 v56 v57 (ix3 r s o) = normScaled w256 (fun o' => v56 (ix3 r s o')) (fun o' => v57 (ix2 0 o')) o := by
  unfold bodyNorm2
  show normCore shapeCasts_S16x49_S16x49x1 broadcasts_S16x49x1_S16x49x256 0x43800000#32 0x3727C5AC#32 v56 _ _ (ix3 r s o)
        * broadcastTo S16x49x256 (shapeCast S1x1x256 (shapeCast S1x256 v57 shapeCasts_S1x256_S1x256) shapeCasts_S1x256_S1x1x256)
            broadcasts_S1x1x256_S16x49x256 (ix3 r s o) = _
  rw [rowBroadcast_apply, shapeCast_self]
  exact normCore_mul_eq shapeCasts_S16x49_S16x49x1 broadcasts_S16x49x1_S16x49x256 0x43800000#32 v56 _ _
    (fun o' => v57 (ix2 0 o')) r s o (meanKeep_apply _ _ _ v56 r s)
    ((sqDev_apply _ _ v56 _ r s).trans (by rw [meanKeep_apply]))

/-- The payload is the three steps in a row. -/
theorem k0_pay8_eq (v17 : FVec Ideal S16x64x256 .f32) (v23 : FVec Ideal S16x49x64 .f32) (v25 v27 : FVec Ideal S1x64 .f32)
    (v31 : FVec Ideal S16x49x1 .f32) (v35 : FVec Ideal S16x49 .f32) (v57 : Vec Ideal S1x256 .f32) :
    k0_pay8 (F := Ideal) v17 v23 v25 v27 v31 v35 v57 = bodyNorm2 (bodyConv v17 (bodyFeat v23 v25 v27 v31 v35)) v57 := rfl

theorem pay8_apply (v17 : FVec Ideal S16x64x256 .f32) (v23 : FVec Ideal S16x49x64 .f32) (v25 v27 : FVec Ideal S1x64 .f32)
    (v31 : FVec Ideal S16x49x1 .f32) (v35 : FVec Ideal S16x49 .f32) (v57 : Vec Ideal S1x256 .f32)
    (h31 : ∀ (r : Fin 16) (s : Fin 49), v31 (ix3 r s 0) = mean w64 (fun f => v23 (ix3 r s f)))
    (h35 : ∀ (r : Fin 16) (s : Fin 49), v35 (ix2 r s) = ∑ f : Fin 64, (v23 (ix3 r s f) - mean w64 (fun f' => v23 (ix3 r s f'))) * (v23 (ix3 r s f) - mean w64 (fun f' => v23 (ix3 r s f'))))
    (r : Fin 16) (s : Fin 49) (o : Fin 256) :
    k0_pay8 (F := Ideal) v17 v23 v25 v27 v31 v35 v57 (ix3 r s o)
      = normScaled w256 (fun o' => ∑ f : Fin 64, normRelu w64 (fun f' => v23 (ix3 r s f')) (fun f' => v25 (ix2 0 f')) (fun f' => v27 (ix2 0 f')) f * v17 (ix3 r f o'))
          (fun o' => v57 (ix2 0 o')) o := by
  have hrow : (fun o' : Fin 256 => bodyConv v17 (bodyFeat v23 v25 v27 v31 v35) (ix3 r s o'))
      = fun o' => ∑ f : Fin 64, normRelu w64 (fun f' => v23 (ix3 r s f')) (fun f' => v25 (ix2 0 f')) (fun f' => v27 (ix2 0 f')) f * v17 (ix3 r f o') :=
    funext fun o' => (bodyConv_apply v17 _ r s o').trans
      (Finset.sum_congr rfl fun f _ => by rw [bodyFeat_apply v23 v25 v27 v31 v35 r s f (h31 r s) (h35 r s)])
  rw [k0_pay8_eq, bodyNorm2_apply, hrow]

end Cert.KernelIdeal.KerValue

end
-- ==== Proof.KerFc.lean ====
/-
  The last stage of the kernel body, read entry by entry.

  The 16 x 49 x 256 features are shifted by a row of 256 entries broadcast over batch and position, rectified,
  and flattened row by row into 16 x 12544: flat entry j of a row is position j / 256, channel j % 256. The
  flattened rows are multiplied into the 12544 x 256 weight (a plain contraction into a zero accumulator), the
  bias row is added, and each row of 256 entries is normalised: the row's mean (its sum, kept as a column, divided
  by the value of the word for 256) is subtracted, the deviations are multiplied by the reciprocal square root of
  the mean squared deviation plus the small constant, scaled by one row, shifted by another, and rectified.
  At every entry (r, o) this is the specification's normalised and rectified row of the affine values.
-/
import proofs.«174626_j24970939859163_1_alg».proof.Proof.Gen.KernelIdeal.Skeleton
import proofs.«174626_j24970939859163_1_alg».proof.Proof.Spec
import proofs.«174626_j24970939859163_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Cert.DynConv Idealize.ShloMosaic Idealize.ShloMosaic.ValueIdx

/-! ## The layout operations of this stage at explicit coordinates -/

section layout
variable {α : Type}

/-- The 16 x 49 x 256 array flattened to 16 x 12544 reads, at (r, j), the operand at (r, j / 256, j % 256). -/
theorem flatten_apply (x : S16x49x256.Idx → α) (h : S16x49x256.ShapeCasts S16x12544) (r : Fin 16) (j : Fin 12544) :
    shapeCast S16x12544 x h (ix2 r j) = x (ix3 r (posOf j) (chanOf j)) :=
  shapeCast_apply x h _ _ (by
    rw [Shape.rowMajor_val_three, Shape.rowMajor_val_two]
    show (r.val * 49 + j.val / 256) * 256 + j.val % 256 = r.val * 12544 + j.val
    omega)

/-- A 1 x 1 x 256 array broadcast to 16 x 49 x 256 reads, at (r, s, c), the operand at (0, 0, c). -/
theorem bcastChan_apply (v : S1x1x256.Idx → α) (h : S1x1x256.Broadcasts S16x49x256) (r : Fin 16) (s : Fin 49)
    (c : Fin 256) : broadcastTo S16x49x256 v h (ix3 r s c) = v (ix3 (0 : Fin 1) (0 : Fin 1) c) := by
  refine broadcastTo_apply v h (ix3 r s c) (ix3 (0 : Fin 1) (0 : Fin 1) c) fun ax => ?_
  match ax with
  | ⟨0, _⟩ => rfl
  | ⟨1, _⟩ => rfl
  | ⟨2, _⟩ => rfl

/-- A vector of 16 entries cast to a 16 x 1 column reads, at (r, u), the operand at r. -/
theorem keepCol_apply (v : S16.Idx → α) (h : S16.ShapeCasts S16x1) (r : Fin 16) (u : Fin 1) :
    shapeCast S16x1 v h (ix2 r u) = v (ix1 r) :=
  shapeCast_apply v h _ _ (by
    rw [Shape.rowMajor_val_one, Shape.rowMajor_val_two]
    show r.val = r.val * 1 + u.val
    have := u.isLt
    omega)

/-- A 16 x 1 column broadcast to 16 x 256 reads, at (r, o), the operand at (r, 0). -/
theorem bcastCol_apply (v : S16x1.Idx → α) (h : S16x1.Broadcasts S16x256) (r : Fin 16) (o : Fin 256) :
    broadcastTo S16x256 v h (ix2 r o) = v (ix2 r (0 : Fin 1)) := by
  refine broadcastTo_apply v h (ix2 r o) (ix2 r (0 : Fin 1)) fun ax => ?_
  match ax with
  | ⟨0, _⟩ => rfl
  | ⟨1, _⟩ => rfl

end layout

/-! ## The lane sum and the contraction -/

/-- The sum of a 16 x 256 array over its second axis, at row r: the sum of the row's 256 entries. -/
theorem rowSum_apply (X : FVec Ideal S16x256 .f32) (h : S16x256.Reduces [1] S16) (hφ : FKind.Formats .f32)
    (hacc : (0x00000000#32 : BitVec (FTy.bits .f32)) = FKind.add.neutral .f32 hφ) (r : Fin 16) :
    multiReduction (F := Ideal) .add [1] S16 X 0x00000000#32 h hφ hacc (ix1 r) = ∑ k : Fin 256, X (ix2 r k) :=
  (Ideal.multiReduction_add_single X 0x00000000#32 h hφ hacc (ix1 r)).trans
    (Finset.sum_congr rfl fun k _ => congrArg X (funext fun a => Fin.ext (by
      match a with
      | ⟨0, _⟩ => rfl
      | ⟨1, _⟩ => rfl)))

/-- The contraction of the flattened rows with the weight into the zero accumulator, at (r, o): the sum over the
    12544 flat entries of the products. -/
theorem fcDot_apply (A : FVec Ideal S16x12544 .bf16) (B : FVec Ideal S12544x256 .bf16) (r : Fin 16) (o : Fin 256) :
    matmul (F := Ideal) dot_S16x12544_S12544x256_S16x256_1_0_0_1_n_n none A B
        (constant (F := Ideal) S16x256 .f32 0x00000000#32) (ix2 r o)
      = ∑ j : Fin 12544, A (ix2 r j) * B (ix2 j o) :=
  Cert.PlainDot.matmul_zero_apply (M := 16) (K := 12544) (N := 256) none A B (ix2 r o)

/-! ## The affine values before the normalisation -/

/-- The rectified shifted features, flattened, times the weight, plus the bias row. -/
def fcPre (v81 : FVec Ideal S16x49x256 .f32) (v82 : FVec Ideal S1x1x256 .f32) (v89 : Vec Ideal S12544x256 .bf16)
    (v92 : Vec Ideal S1x256 .f32) : FVec Ideal S16x256 .f32 :=
  addf
    (matmul dot_S16x12544_S12544x256_S16x256_1_0_0_1_n_n none
      (truncf .bf16
        (shapeCast S16x12544
          (maximumf (addf v81 (broadcastTo S16x49x256 v82 broadcasts_S1x1x256_S16x49x256))
            (broadcast S16x49x256 (Scalar.ofBits (F := Ideal) .f32 0x00000000#32)))
          shapeCasts_S16x49x256_S16x12544)
        bitsLt_bf16_f32)
      (shapeCast S12544x256 v89 shapeCasts_S12544x256_S12544x256 : FVec Ideal S12544x256 .bf16)
      (constant (F := Ideal) S16x256 .f32 0x00000000#32))
    (broadcastTo S16x256 (shapeCast S1x256 v92 shapeCasts_S1x256_S1x256 : FVec Ideal S1x256 .f32) broadcasts_S1x256_S16x256)

theorem fcPre_apply (v81 : FVec Ideal S16x49x256 .f32) (v82 : FVec Ideal S1x1x256 .f32)
    (v89 : Vec Ideal S12544x256 .bf16) (v92 : Vec Ideal S1x256 .f32) (r : Fin 16) (o : Fin 256) :
    fcPre v81 v82 v89 v92 (ix2 r o)
      = (∑ j : Fin 12544, max (v81 (ix3 r (posOf j) (chanOf j)) + v82 (ix3 0 0 (chanOf j))) wZero * v89 (ix2 j o))
          + v92 (ix2 0 o) := by
  show matmul (F := Ideal) dot_S16x12544_S12544x256_S16x256_1_0_0_1_n_n none _ _
        (constant (F := Ideal) S16x256 .f32 0x00000000#32) (ix2 r o)
      + broadcastTo S16x256 (shapeCast S1x256 v92 shapeCasts_S1x256_S1x256) broadcasts_S1x256_S16x256 (ix2 r o) = _
  rw [fcDot_apply, broadcastTo_1b_ab_apply, shapeCast_self, shapeCast_self]
  refine congrArg (· + v92 (ix2 0 o)) (Finset.sum_congr rfl fun j _ => ?_)
  show shapeCast S16x12544
        (maximumf (addf v81 (broadcastTo S16x49x256 v82 broadcasts_S1x1x256_S16x49x256))
          (broadcast S16x49x256 (Scalar.ofBits (F := Ideal) .f32 0x00000000#32)))
        shapeCasts_S16x49x256_S16x12544 (ix2 r j) * v89 (ix2 j o) = _
  rw [flatten_apply]
  show max (v81 (ix3 r (posOf j) (chanOf j))
        + broadcastTo S16x49x256 v82 broadcasts_S1x1x256_S16x49x256 (ix3 r (posOf j) (chanOf j))) wZero
      * v89 (ix2 j o) = _
  rw [bcastChan_apply]

/-! ## The normalisation of a 16 x 256 array's rows -/

/-- The row means as a 16 x 1 column: the lane sum over the second axis, kept with a unit axis, divided by the value
    of the word for 256. -/
def meanCol (X : FVec Ideal S16x256 .f32) : FVec Ideal S16x1 .f32 :=
  divf
    (shapeCast S16x1 (multiReduction (F := Ideal) .add [1] S16 X 0x00000000#32 reduces_S16x256_S16 (.inl rfl) rfl)
      shapeCasts_S16_S16x1)
    (broadcast S16x1 (Scalar.ofBits (F := Ideal) .f32 0x43800000#32))

theorem meanCol_apply (X : FVec Ideal S16x256 .f32) (r : Fin 16) (u : Fin 1) :
    meanCol X (ix2 r u) = mean w256 (fun k => X (ix2 r k)) := by
  show Ideal.div
      (shapeCast S16x1 (multiReduction (F := Ideal) .add [1] S16 X 0x00000000#32 reduces_S16x256_S16 (.inl rfl) rfl)
        shapeCasts_S16_S16x1 (ix2 r u)) w256
    = Ideal.div (∑ k : Fin 256, X (ix2 r k)) w256
  exact congrArg (fun t => Ideal.div t w256) ((keepCol_apply _ _ r u).trans (rowSum_apply X _ _ _ r))

/-- The deviations of the entries from their rows' means. -/
def devs (X : FVec Ideal S16x256 .f32) : FVec Ideal S16x256 .f32 :=
  subf X (broadcastTo S16x256 (meanCol X) broadcasts_S16x1_S16x256)

theorem devs_apply (X : FVec Ideal S16x256 .f32) (r : Fin 16) (o : Fin 256) :
    devs X (ix2 r o) = X (ix2 r o) - mean w256 (fun k => X (ix2 r k)) := by
  show X (ix2 r o) - broadcastTo S16x256 (meanCol X) broadcasts_S16x1_S16x256 (ix2 r o) = _
  rw [bcastCol_apply, meanCol_apply]

/-- The reciprocal square roots of the rows' mean squared deviations plus the small constant, as a 16 x 1 column. -/
def invStdCol (X : FVec Ideal S16x256 .f32) : FVec Ideal S16x1 .f32 :=
  rsqrt (addf (meanCol (mulf (devs X) (devs X))) (broadcast S16x1 (Scalar.ofBits (F := Ideal) .f32 0x3727C5AC#32)))

theorem invStdCol_apply (X : FVec Ideal S16x256 .f32) (r : Fin 16) (u : Fin 1) :
    invStdCol X (ix2 r u) = Ideal.rsqrt (var w256 (fun k => X (ix2 r k)) + wEps) := by
  show Ideal.rsqrt (meanCol (mulf (devs X) (devs X)) (ix2 r u) + wEps) = _
  rw [meanCol_apply]
  show Ideal.rsqrt (Ideal.div (∑ k : Fin 256, devs X (ix2 r k) * devs X (ix2 r k)) w256 + wEps) = _
  simp only [devs_apply]
  rfl

/-- The rows normalised, scaled by the row g, shifted by the row b, and rectified. -/
def normTail (X : FVec Ideal S16x256 .f32) (g b : Vec Ideal S1x256 .f32) : FVec Ideal S16x256 .f32 :=
  maximumf
    (addf
      (mulf (mulf (devs X) (broadcastTo S16x256 (invStdCol X) broadcasts_S16x1_S16x256))
        (broadcastTo S16x256 (shapeCast S1x256 g shapeCasts_S1x256_S1x256) broadcasts_S1x256_S16x256))
      (broadcastTo S16x256 (shapeCast S1x256 b shapeCasts_S1x256_S1x256) broadcasts_S1x256_S16x256))
    (broadcast S16x256 (Scalar.ofBits (F := Ideal) .f32 0x00000000#32))

theorem normTail_apply (X : FVec Ideal S16x256 .f32) (g b : Vec Ideal S1x256 .f32) (r : Fin 16) (o : Fin 256) :
    normTail X g b (ix2 r o)
      = normRelu w256 (fun o' => X (ix2 r o')) (fun o' => g (ix2 0 o')) (fun o' => b (ix2 0 o')) o := by
  show max (devs X (ix2 r o) * broadcastTo S16x256 (invStdCol X) broadcasts_S16x1_S16x256 (ix2 r o)
        * broadcastTo S16x256 (shapeCast S1x256 g shapeCasts_S1x256_S1x256) broadcasts_S1x256_S16x256 (ix2 r o)
        + broadcastTo S16x256 (shapeCast S1x256 b shapeCasts_S1x256_S1x256) broadcasts_S1x256_S16x256 (ix2 r o))
      wZero = _
  rw [bcastCol_apply, invStdCol_apply, devs_apply, broadcastTo_1b_ab_apply, broadcastTo_1b_ab_apply,
    shapeCast_self, shapeCast_self]
  rfl

/-! ## The payload -/

/-- The payload is the normalisation of the affine values. -/
theorem pay10_eq (v81 : FVec Ideal S16x49x256 .f32) (v82 : FVec Ideal S1x1x256 .f32) (v89 : Vec Ideal S12544x256 .bf16)
    (v92 v96 v98 : Vec Ideal S1x256 .f32) :
    k0_pay10 (F := Ideal) v81 v82 v89 v92 v96 v98 = normTail (fcPre v81 v82 v89 v92) v96 v98 := rfl

/-- The payload at (r, o): the specification's normalised, scaled, shifted and rectified row of the affine values. -/
theorem pay10_apply (v81 : FVec Ideal S16x49x256 .f32) (v82 : FVec Ideal S1x1x256 .f32) (v89 : Vec Ideal S12544x256 .bf16)
    (v92 v96 v98 : Vec Ideal S1x256 .f32) (r : Fin 16) (o : Fin 256) :
    k0_pay10 (F := Ideal) v81 v82 v89 v92 v96 v98 (ix2 r o)
      = normRelu w256 (fun o' => (∑ j : Fin 12544, max (v81 (ix3 r (posOf j) (chanOf j)) + v82 (ix3 0 0 (chanOf j))) wZero * v89 (ix2 j o')) + v92 (ix2 0 o'))
          (fun o' => v96 (ix2 0 o')) (fun o' => v98 (ix2 0 o')) o := by
  rw [pay10_eq, normTail_apply]
  exact congrArg (fun x => normRelu w256 x (fun o' => v96 (ix2 0 o')) (fun o' => v98 (ix2 0 o')) o)
    (funext fun o' => fcPre_apply v81 v82 v89 v92 r o')

end Cert.KernelIdeal.KerValue

end
-- ==== Proof.KernelValue.lean ====
/-
  The kernel body's result at an entry of its 16-row block is the sample function of that row.

  The body's arithmetic is cut into pure pieces: the two generated weight rows and the first convolution, the first
  normalisation's mean and sum of squared deviations, the rest of the first layer with the second convolution and
  the second normalisation up to its scale, and the shift, rectifier, flattening, last affine map and third
  normalisation. Each piece read at an index is one link of the sample function; here the links are joined.
-/
import proofs.«174626_j24970939859163_1_alg».proof.Proof.KerConv
import proofs.«174626_j24970939859163_1_alg».proof.Proof.KerNorm
import proofs.«174626_j24970939859163_1_alg».proof.Proof.KerFc
import Idealize.ShloMosaic.Lib.ValueLayout

noncomputable section

namespace Cert.KernelIdeal.KerValue

open Cert.KernelIdeal Cert.KernelIdeal.Gen Cert.DynConv Idealize.ShloMosaic Idealize.ShloMosaic.ValueIdx

/-- The first scale row is passed through unchanged. -/
theorem pay4_eq (x : Vec Ideal S1x64 .f32) : k0_pay4 (F := Ideal) x = x := by
  unfold k0_pay4; exact shapeCast_self _ _

/-- The first shift row is passed through unchanged. -/
theorem pay5_eq (x : Vec Ideal S1x64 .f32) : k0_pay5 (F := Ideal) x = x := by
  unfold k0_pay5; exact shapeCast_self _ _

/-- The second shift row with two unit axes in front reads the row at the channel. -/
theorem pay9_apply (x : Vec Ideal S1x256 .f32) (o : Fin 256) : k0_pay9 (F := Ideal) x (ix3 0 0 o) = x (ix2 0 o) := by
  unfold k0_pay9
  rw [shapeCast_self]
  exact shapeCast_ab_1ab_apply x shapeCasts_S1x256_S1x1x256 0 0 o

/-- Row `r`, column `o` of what the body stores: the sample function of row `r` of the parameter block and of
    the input block, and of the resident weights. -/
theorem payload_apply (x0 : Vec Ideal S16x256 .bf16) (x1 : Vec Ideal S16x256x49 .f32) (x2 : Vec Ideal S256x16384 .bf16)
    (x3 : Vec Ideal S1x16384 .f32) (x4 : Vec Ideal S256x16384 .bf16) (x5 : Vec Ideal S1x16384 .f32)
    (x6 x7 : Vec Ideal S1x64 .f32) (x8 x9 : Vec Ideal S1x256 .f32) (x10 : Vec Ideal S12544x256 .bf16)
    (x11 x12 x13 : Vec Ideal S1x256 .f32) (r : Fin 16) (o : Fin 256) :
    k0_pay10 (k0_pay8 (k0_pay2 x0 x4 x5) (k0_pay3 x0 x2 x3 x1) (k0_pay4 x6) (k0_pay5 x7) (k0_pay6 x0 x2 x3 x1)
        (k0_pay7 x0 x2 x3 x1) x8) (k0_pay9 x9) x10 x11 x12 x13 (ix2 r o)
      = out (fun k => x0 (ix2 r k)) (fun c s => x1 (ix3 r c s)) (fun k j => x2 (ix2 k j)) (fun j => x3 (ix2 0 j))
          (fun k j => x4 (ix2 k j)) (fun j => x5 (ix2 0 j)) (fun f => x6 (ix2 0 f)) (fun f => x7 (ix2 0 f))
          (fun o => x8 (ix2 0 o)) (fun o => x9 (ix2 0 o)) (fun j o => x10 (ix2 j o)) (fun o => x11 (ix2 0 o))
          (fun o => x12 (ix2 0 o)) (fun o => x13 (ix2 0 o)) o := by
  rw [pay10_apply]
  unfold out
  refine congrArg (fun v => normRelu w256 v _ _ o) (funext fun o' => ?_)
  unfold fc
  refine congrArg (· + _) (Finset.sum_congr rfl fun j _ => congrArg (· * _) ?_)
  rw [pay8_apply _ _ _ _ _ _ _ (pay6_apply x0 x2 x3 x1) (pay7_apply x0 x2 x3 x1), pay9_apply, pay4_eq, pay5_eq]
  unfold feat2 normRelu
  refine congrArg (fun t => max (t + _) wZero) ?_
  refine congrArg (fun v => normScaled w256 v _ (chanOf j)) (funext fun o'' => ?_)
  unfold conv2
  refine Finset.sum_congr rfl fun f _ => congrArg₂ (· * ·) ?_ (pay2_apply x0 x4 x5 r f o'')
  unfold feat1 normRelu
  exact congrArg (fun v => max (normScaled w64 v _ f + _) wZero) (funext fun f' => pay3_apply x0 x2 x3 x1 r (posOf j) f')

end Cert.KernelIdeal.KerValue

end
-- ==== Proof.Blocks.lean ====
/-
  From the sixteen-row tiles to the whole batch.

  The batch of 4096 samples is cut into 256 tiles of 16 consecutive rows. Tile `t` reads rows `16 t … 16 t + 15`
  of the parameter array and of the input (whose 7 x 7 grid is laid out as 49 positions row by row), and the whole
  of the shared weights: the two halves of 16384 columns of the generator's weight and bias, the three
  normalisations' scales and shifts as single rows, and the last affine map's weight and bias. Each of these
  arrays is written before the tiles run by a change of number format (the identity on the extended reals),
  a slice of columns, or a reading of a vector as one row; read at an index each is an entry of an argument.

  A tile's result at row `r`, column `o` is the sample function of row `r` of its blocks, hence of row
  `16 t + r` of the arguments: tile `t` writes rows `16 t … 16 t + 15` of `G` of the arguments. Row `n`
  lies in tile `n / 16`, so the tiles cover the result array, which therefore ends as `G` of the arguments.
-/
import proofs.«174626_j24970939859163_1_alg».proof.Proof.Gen.KernelIdeal.Value
import proofs.«174626_j24970939859163_1_alg».proof.Proof.KernelValue
import proofs.«174626_j24970939859163_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Value Cert.DynConv Idealize.ShloMosaic Idealize.ShloMosaic.TcCoe Idealize.SL.Sem Idealize.ShloMosaic.ValueIdx

variable (m : (ℓ : Loc nD τ sig) → Buf (Elt Ideal) ℓ) (ρ : Dev nD → PrngReg)

/-! ## The arrays the tiles read, as the host operations leave them -/

/-- The parameter array in the tiles' number format. -/
theorem entry_v1 (c : Dev nD) : (V m c main_v1 : S4096x256.Idx → EReal)
    = (truncf .bf16 (m ((c : Thread nD τ).loc main_arg0) : FVec Ideal S4096x256 .f32) bitsLt_bf16_f32 : FVec Ideal S4096x256 .bf16) := by
  dsimp only [Gen.V, Gen.hostOps0]; after_results

/-- The input with its 7 x 7 grid flattened to 49 positions. -/
theorem entry_v0 (c : Dev nD) : (V m c main_v0 : S4096x256x49.Idx → EReal)
    = shapeCast S4096x256x49 (m ((c : Thread nD τ).loc main_arg1) : FVec Ideal S4096x256x7x7 .f32) shapeCasts_S4096x256x7x7_S4096x256x49 := by
  dsimp only [Gen.V, Gen.hostOps0]; after_results; rfl

/-- The first 16384 columns of the generator's weight. -/
theorem entry_v3 (c : Dev nD) : (V m c main_v3 : S256x16384.Idx → EReal)
    = (truncf .bf16 (extractStridedSlice S256x16384 ![0, 0] (m ((c : Thread nD τ).loc main_arg2) : FVec Ideal S256x32768 .f32) slices_S256x32768_S256x16384_0_0 : FVec Ideal S256x16384 .f32) bitsLt_bf16_f32 : FVec Ideal S256x16384 .bf16) := by
  dsimp only [Gen.V, Gen.hostOps0]; after_results

/-- The last 16384 columns of the generator's weight. -/
theorem entry_v5 (c : Dev nD) : (V m c main_v5 : S256x16384.Idx → EReal)
    = (truncf .bf16 (extractStridedSlice S256x16384 ![0, 16384] (m ((c : Thread nD τ).loc main_arg2) : FVec Ideal S256x32768 .f32) slices_S256x32768_S256x16384_0_16384 : FVec Ideal S256x16384 .f32) bitsLt_bf16_f32 : FVec Ideal S256x16384 .bf16) := by
  dsimp only [Gen.V, Gen.hostOps0]; after_results

/-- The first 16384 entries of the generator's bias, as one row. -/
theorem entry_v7 (c : Dev nD) : (V m c main_v7 : S1x16384.Idx → EReal)
    = shapeCast S1x16384 (extractStridedSlice S16384 ![0] (m ((c : Thread nD τ).loc main_arg3) : FVec Ideal S32768 .f32) slices_S32768_S16384_0) shapeCasts_S16384_S1x16384 := by
  dsimp only [Gen.V, Gen.hostOps0]; after_results; rfl

/-- The last 16384 entries of the generator's bias, as one row. -/
theorem entry_v9 (c : Dev nD) : (V m c main_v9 : S1x16384.Idx → EReal)
    = shapeCast S1x16384 (extractStridedSlice S16384 ![16384] (m ((c : Thread nD τ).loc main_arg3) : FVec Ideal S32768 .f32) slices_S32768_S16384_16384) shapeCasts_S16384_S1x16384 := by
  dsimp only [Gen.V, Gen.hostOps0]; after_results; rfl

/-- The first normalisation's scale as one row. -/
theorem entry_v10 (c : Dev nD) : (V m c main_v10 : S1x64.Idx → EReal)
    = shapeCast S1x64 (m ((c : Thread nD τ).loc main_arg4) : FVec Ideal S64 .f32) shapeCasts_S64_S1x64 := by
  dsimp only [Gen.V, Gen.hostOps0]; after_results; rfl

/-- The first normalisation's shift as one row. -/
theorem entry_v11 (c : Dev nD) : (V m c main_v11 : S1x64.Idx → EReal)
    = shapeCast S1x64 (m ((c : Thread nD τ).loc main_arg5) : FVec Ideal S64 .f32) shapeCasts_S64_S1x64 := by
  dsimp only [Gen.V, Gen.hostOps0]; after_results; rfl

/-- The second normalisation's scale as one row. -/
theorem entry_v12 (c : Dev nD) : (V m c main_v12 : S1x256.Idx → EReal)
    = shapeCast S1x256 (m ((c : Thread nD τ).loc main_arg6) : FVec Ideal S256 .f32) shapeCasts_S256_S1x256 := by
  dsimp only [Gen.V, Gen.hostOps0]; after_results; rfl

/-- The second normalisation's shift as one row. -/
theorem entry_v13 (c : Dev nD) : (V m c main_v13 : S1x256.Idx → EReal)
    = shapeCast S1x256 (m ((c : Thread nD τ).loc main_arg7) : FVec Ideal S256 .f32) shapeCasts_S256_S1x256 := by
  dsimp only [Gen.V, Gen.hostOps0]; after_results; rfl

/-- The last affine map's weight in the tiles' number format. -/
theorem entry_v14 (c : Dev nD) : (V m c main_v14 : S12544x256.Idx → EReal)
    = (truncf .bf16 (m ((c : Thread nD τ).loc main_arg8) : FVec Ideal S12544x256 .f32) bitsLt_bf16_f32 : FVec Ideal S12544x256 .bf16) := by
  dsimp only [Gen.V, Gen.hostOps0]; after_results

/-- The last affine map's bias as one row. -/
theorem entry_v15 (c : Dev nD) : (V m c main_v15 : S1x256.Idx → EReal)
    = shapeCast S1x256 (m ((c : Thread nD τ).loc main_arg9) : FVec Ideal S256 .f32) shapeCasts_S256_S1x256 := by
  dsimp only [Gen.V, Gen.hostOps0]; after_results; rfl

/-- The third normalisation's scale as one row. -/
theorem entry_v16 (c : Dev nD) : (V m c main_v16 : S1x256.Idx → EReal)
    = shapeCast S1x256 (m ((c : Thread nD τ).loc main_arg10) : FVec Ideal S256 .f32) shapeCasts_S256_S1x256 := by
  dsimp only [Gen.V, Gen.hostOps0]; after_results; rfl

/-- The third normalisation's shift as one row. -/
theorem entry_v17 (c : Dev nD) : (V m c main_v17 : S1x256.Idx → EReal)
    = shapeCast S1x256 (m ((c : Thread nD τ).loc main_arg11) : FVec Ideal S256 .f32) shapeCasts_S256_S1x256 := by
  dsimp only [Gen.V, Gen.hostOps0]; after_results; rfl

/-! ## Where each tile's blocks lie -/

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The parameter block, the input block and the result block of tile `t` are block `t` along the batch axis and
    block 0 along every other axis (decided over the 256 tiles). -/
theorem batch_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_14.index t (0 : Fin 2) = t.val ∧ win0_14.index t (1 : Fin 2) = 0 :=
  (by decide +kernel : ∀ t : Fin grid0.N, _)

/-- Every shared array is one block, block (0, 0), at every tile (decided over the 256 tiles). -/
theorem resident_index : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The batch row that row `r` of tile `t` is: `16 t + r`. -/
def rowOf (t : Fin cfg0.N) (r : Fin 16) : Fin 4096 :=
  ⟨16 * t.val + r.val, by have := lt_of_lt_of_eq t.isLt N_0; have := r.isLt; omega⟩

/-! ## Each block of a tile, entry by entry, in the arguments -/
/-- Row `r` of tile `t`'s parameter block is row `16 t + r` of the parameter array. -/
theorem params_block (c : Dev nD) (t : Fin cfg0.N) (r : Fin 16) (k : Fin 256) :
    (iblk m c 0 t : Vec Ideal S16x256 .bf16) (ix2 r k)
      = (m ((c : Thread nD τ).loc main_arg0) : FVec Ideal S4096x256 .f32) (ix2 (rowOf t r) k) := by
  obtain ⟨e0, e1, -⟩ := batch_index t
  unfold iblk
  rw [View.read_apply]
  show (V m c main_v1 : S4096x256.Idx → EReal) _ = _
  rw [entry_v1, truncf_apply]
  refine congrArg _ (funext fun a => Fin.ext ?_)
  match a with
  | ⟨0, _⟩ => show win0_0.index t (0 : Fin 2) * 16 + 1 * r.val = 16 * t.val + r.val; omega
  | ⟨1, _⟩ => show win0_0.index t (1 : Fin 2) * 256 + 1 * k.val = k.val; omega

/-- Row `r` of tile `t`'s input block is sample `16 t + r` of the input, position `s` at row `s / 7`, column `s % 7` of the
    grid: the two arrays agree at equal row-major positions. -/
theorem input_block (c : Dev nD) (t : Fin cfg0.N) (r : Fin 16) (ch : Fin 256) (s : Fin 49) :
    (iblk m c 1 t : Vec Ideal S16x256x49 .f32) (ix3 r ch s)
      = (m ((c : Thread nD τ).loc main_arg1) : FVec Ideal S4096x256x7x7 .f32) (ix4 (rowOf t r) ch (gridRow s) (gridCol s)) := by
  obtain ⟨-, -, e0, e1, e2, -⟩ := batch_index t
  unfold iblk
  rw [View.read_apply]
  show (V m c main_v0 : S4096x256x49.Idx → EReal) _ = _
  rw [entry_v0]
  refine shapeCast_apply _ _ _ (ix4 (rowOf t r) ch (gridRow s) (gridCol s)) ?_
  rw [Shape.rowMajor_val_four, Shape.rowMajor_val_three]
  show (((16 * t.val + r.val) * 256 + ch.val) * 7 + s.val / 7) * 7 + s.val % 7
    = ((win0_1.index t (0 : Fin 3) * 16 + 1 * r.val) * 256 + (win0_1.index t (1 : Fin 3) * 256 + 1 * ch.val)) * 49
      + (win0_1.index t (2 : Fin 3) * 49 + 1 * s.val)
  omega

/-- The first resident weight, at every tile: the first 16384 columns of the generator's weight. -/
theorem weight1_block (c : Dev nD) (t : Fin cfg0.N) (k : Fin 256) (j : Fin 16384) :
    (iblk m c 2 t : Vec Ideal S256x16384 .bf16) (ix2 k j)
      = (m ((c : Thread nD τ).loc main_arg2) : FVec Ideal S256x32768 .f32) (ix2 k (lowHalf j)) := by
  obtain ⟨⟨e0, e1⟩, -⟩ := resident_index t
  unfold iblk
  rw [View.read_apply]
  show (V m c main_v3 : S256x16384.Idx → EReal) _ = _
  rw [entry_v3, truncf_apply]
  refine extractStridedSlice_apply _ _ _ _ (ix2 k (lowHalf j)) fun a => ?_
  match a with
  | ⟨0, _⟩ => show k.val = 0 + (win0_2.index t (0 : Fin 2) * 256 + 1 * k.val); omega
  | ⟨1, _⟩ => show j.val = 0 + (win0_2.index t (1 : Fin 2) * 16384 + 1 * j.val); omega

/-- The first resident bias row, at every tile: the first 16384 entries of the generator's bias. -/
theorem bias1_block (c : Dev nD) (t : Fin cfg0.N) (j : Fin 16384) :
    (iblk m c 3 t : Vec Ideal S1x16384 .f32) (ix2 0 j)
      = (m ((c : Thread nD τ).loc main_arg3) : FVec Ideal S32768 .f32) (ix1 (lowHalf j)) := by
  obtain ⟨-, ⟨e0, e1⟩, -⟩ := resident_index t
  unfold iblk
  rw [View.read_apply]
  show (V m c main_v7 : S1x16384.Idx → EReal) _ = _
  rw [entry_v7]
  refine (shapeCast_apply _ _ _ (ix1 j) ?_).trans ?_
  · rw [Shape.rowMajor_val_one, Shape.rowMajor_val_two]
    show j.val = (win0_3.index t (0 : Fin 2) * 1 + 1 * 0) * 16384 + (win0_3.index t (1 : Fin 2) * 16384 + 1 * j.val)
    omega
  · refine extractStridedSlice_apply _ _ _ _ (ix1 (lowHalf j)) fun a => ?_
    match a with
    | ⟨0, _⟩ => show j.val = 0 + j.val; omega

/-- The resident row of the first normalisation's scale, at every tile: the argument read as one row. -/
theorem scale1_block (c : Dev nD) (t : Fin cfg0.N) (f : Fin 64) :
    (iblk m c 6 t : Vec Ideal S1x64 .f32) (ix2 0 f)
      = (m ((c : Thread nD τ).loc main_arg4) : FVec Ideal S64 .f32) (ix1 f) := by
  obtain ⟨-, -, -, -, ⟨e0, e1⟩, -⟩ := resident_index t
  unfold iblk
  rw [View.read_apply]
  show (V m c main_v10 : S1x64.Idx → EReal) _ = _
  rw [entry_v10]
  refine shapeCast_apply _ _ _ (ix1 f) ?_
  rw [Shape.rowMajor_val_one, Shape.rowMajor_val_two]
  show f.val = (win0_6.index t (0 : Fin 2) * 1 + 1 * 0) * 64 + (win0_6.index t (1 : Fin 2) * 64 + 1 * f.val)
  omega

/-- The second resident weight, at every tile: the last 16384 columns of the generator's weight. -/
theorem weight2_block (c : Dev nD) (t : Fin cfg0.N) (k : Fin 256) (j : Fin 16384) :
    (iblk m c 4 t : Vec Ideal S256x16384 .bf16) (ix2 k j)
      = (m ((c : Thread nD τ).loc main_arg2) : FVec Ideal S256x32768 .f32) (ix2 k (highHalf j)) := by
  obtain ⟨-, -, ⟨e0, e1⟩, -⟩ := resident_index t
  unfold iblk
  rw [View.read_apply]
  show (V m c main_v5 : S256x16384.Idx → EReal) _ = _
  rw [entry_v5, truncf_apply]
  refine extractStridedSlice_apply _ _ _ _ (ix2 k (highHalf j)) fun a => ?_
  match a with
  | ⟨0, _⟩ => show k.val = 0 + (win0_4.index t (0 : Fin 2) * 256 + 1 * k.val); omega
  | ⟨1, _⟩ => show 16384 + j.val = 16384 + (win0_4.index t (1 : Fin 2) * 16384 + 1 * j.val); omega

/-- The second resident bias row, at every tile: the last 16384 entries of the generator's bias. -/
theorem bias2_block (c : Dev nD) (t : Fin cfg0.N) (j : Fin 16384) :
    (iblk m c 5 t : Vec Ideal S1x16384 .f32) (ix2 0 j)
      = (m ((c : Thread nD τ).loc main_arg3) : FVec Ideal S32768 .f32) (ix1 (highHalf j)) := by
  obtain ⟨-, -, -, ⟨e0, e1⟩, -⟩ := resident_index t
  unfold iblk
  rw [View.read_apply]
  show (V m c main_v9 : S1x16384.Idx → EReal) _ = _
  rw [entry_v9]
  refine (shapeCast_apply _ _ _ (ix1 j) ?_).trans ?_
  · rw [Shape.rowMajor_val_one, Shape.rowMajor_val_two]
    show j.val = (win0_5.index t (0 : Fin 2) * 1 + 1 * 0) * 16384 + (win0_5.index t (1 : Fin 2) * 16384 + 1 * j.val)
    omega
  · refine extractStridedSlice_apply _ _ _ _ (ix1 (highHalf j)) fun a => ?_
    match a with
    | ⟨0, _⟩ => show 16384 + j.val = 16384 + j.val; rfl

/-- The resident row of the first normalisation's shift, at every grid point: the argument read as one row. -/
theorem shift1_block (c : Dev nD) (t : Fin cfg0.N) (f : Fin 64) :
    (iblk m c 7 t : Vec Ideal S1x64 .f32) (ix2 0 f)
      = (m ((c : Thread nD τ).loc main_arg5) : FVec Ideal S64 .f32) (ix1 f) := by
  obtain ⟨-, -, -, -, -, ⟨e0, e1⟩, -⟩ := resident_index t
  unfold iblk
  rw [View.read_apply]
  show (V m c main_v11 : S1x64.Idx → EReal) _ = _
  rw [entry_v11]
  refine shapeCast_apply _ _ _ (ix1 f) ?_
  rw [Shape.rowMajor_val_one, Shape.rowMajor_val_two]
  show f.val = (win0_7.index t (0 : Fin 2) * 1 + 1 * 0) * 64 + (win0_7.index t (1 : Fin 2) * 64 + 1 * f.val)
  omega

/-- The resident row of the second normalisation's scale, at every grid point: the argument read as one row. -/
theorem scale2_block (c : Dev nD) (t : Fin cfg0.N) (o : Fin 256) :
    (iblk m c 8 t : Vec Ideal S1x256 .f32) (ix2 0 o)
      = (m ((c : Thread nD τ).loc main_arg6) : FVec Ideal S256 .f32) (ix1 o) := by
  obtain ⟨-, -, -, -, -, -, ⟨e0, e1⟩, -⟩ := resident_index t
  unfold iblk
  rw [View.read_apply]
  show (V m c main_v12 : S1x256.Idx → EReal) _ = _
  rw [entry_v12]
  refine shapeCast_apply _ _ _ (ix1 o) ?_
  rw [Shape.rowMajor_val_one, Shape.rowMajor_val_two]
  show o.val = (win0_8.index t (0 : Fin 2) * 1 + 1 * 0) * 256 + (win0_8.index t (1 : Fin 2) * 256 + 1 * o.val)
  omega

/-- The resident row of the second normalisation's shift, at every grid point: the argument read as one row. -/
theorem shift2_block (c : Dev nD) (t : Fin cfg0.N) (o : Fin 256) :
    (iblk m c 9 t : Vec Ideal S1x256 .f32) (ix2 0 o)
      = (m ((c : Thread nD τ).loc main_arg7) : FVec Ideal S256 .f32) (ix1 o) := by
  obtain ⟨-, -, -, -, -, -, -, ⟨e0, e1⟩, -⟩ := resident_index t
  unfold iblk
  rw [View.read_apply]
  show (V m c main_v13 : S1x256.Idx → EReal) _ = _
  rw [entry_v13]
  refine shapeCast_apply _ _ _ (ix1 o) ?_
  rw [Shape.rowMajor_val_one, Shape.rowMajor_val_two]
  show o.val = (win0_9.index t (0 : Fin 2) * 1 + 1 * 0) * 256 + (win0_9.index t (1 : Fin 2) * 256 + 1 * o.val)
  omega

/-- The resident row of the last affine map's bias, at every grid point: the argument read as one row. -/
theorem fcBias_block (c : Dev nD) (t : Fin cfg0.N) (o : Fin 256) :
    (iblk m c 11 t : Vec Ideal S1x256 .f32) (ix2 0 o)
      = (m ((c : Thread nD τ).loc main_arg9) : FVec Ideal S256 .f32) (ix1 o) := by
  obtain ⟨-, -, -, -, -, -, -, -, -, ⟨e0, e1⟩, -⟩ := resident_index t
  unfold iblk
  rw [View.read_apply]
  show (V m c main_v15 : S1x256.Idx → EReal) _ = _
  rw [entry_v15]
  refine shapeCast_apply _ _ _ (ix1 o) ?_
  rw [Shape.rowMajor_val_one, Shape.rowMajor_val_two]
  show o.val = (win0_11.index t (0 : Fin 2) * 1 + 1 * 0) * 256 + (win0_11.index t (1 : Fin 2) * 256 + 1 * o.val)
  omega

/-- The resident row of the third normalisation's scale, at every grid point: the argument read as one row. -/
theorem scale3_block (c : Dev nD) (t : Fin cfg0.N) (o : Fin 256) :
    (iblk m c 12 t : Vec Ideal S1x256 .f32) (ix2 0 o)
      = (m ((c : Thread nD τ).loc main_arg10) : FVec Ideal S256 .f32) (ix1 o) := by
  obtain ⟨-, -, -, -, -, -, -, -, -, -, ⟨e0, e1⟩, -⟩ := resident_index t
  unfold iblk
  rw [View.read_apply]
  show (V m c main_v16 : S1x256.Idx → EReal) _ = _
  rw [entry_v16]
  refine shapeCast_apply _ _ _ (ix1 o) ?_
  rw [Shape.rowMajor_val_one, Shape.rowMajor_val_two]
  show o.val = (win0_12.index t (0 : Fin 2) * 1 + 1 * 0) * 256 + (win0_12.index t (1 : Fin 2) * 256 + 1 * o.val)
  omega

/-- The resident row of the third normalisation's shift, at every grid point: the argument read as one row. -/
theorem shift3_block (c : Dev nD) (t : Fin cfg0.N) (o : Fin 256) :
    (iblk m c 13 t : Vec Ideal S1x256 .f32) (ix2 0 o)
      = (m ((c : Thread nD τ).loc main_arg11) : FVec Ideal S256 .f32) (ix1 o) := by
  obtain ⟨-, -, -, -, -, -, -, -, -, -, -, ⟨e0, e1⟩⟩ := resident_index t
  unfold iblk
  rw [View.read_apply]
  show (V m c main_v17 : S1x256.Idx → EReal) _ = _
  rw [entry_v17]
  refine shapeCast_apply _ _ _ (ix1 o) ?_
  rw [Shape.rowMajor_val_one, Shape.rowMajor_val_two]
  show o.val = (win0_13.index t (0 : Fin 2) * 1 + 1 * 0) * 256 + (win0_13.index t (1 : Fin 2) * 256 + 1 * o.val)
  omega

/-- The resident weight of the last affine map, at every tile: the argument itself. -/
theorem fcWeight_block (c : Dev nD) (t : Fin cfg0.N) (j : Fin 12544) (o : Fin 256) :
    (iblk m c 10 t : Vec Ideal S12544x256 .bf16) (ix2 j o)
      = (m ((c : Thread nD τ).loc main_arg8) : FVec Ideal S12544x256 .f32) (ix2 j o) := by
  obtain ⟨-, -, -, -, -, -, -, -, ⟨e0, e1⟩, -⟩ := resident_index t
  unfold iblk
  rw [View.read_apply]
  show (V m c main_v14 : S12544x256.Idx → EReal) _ = _
  rw [entry_v14, truncf_apply]
  refine congrArg _ (funext fun a => Fin.ext ?_)
  match a with
  | ⟨0, _⟩ => show win0_10.index t (0 : Fin 2) * 12544 + 1 * j.val = j.val; omega
  | ⟨1, _⟩ => show win0_10.index t (1 : Fin 2) * 256 + 1 * o.val = o.val; omega

/-! ## A tile's result, the cover, the whole array -/

/-- The tile's stored value at row `r`, column `o`, from blocks whose entries are those of the arguments at batch
    row `n`, is `G` of the arguments at row `n`, column `o`. -/
theorem tile_entry (a0 : FVec Ideal S4096x256 .f32) (a1 : FVec Ideal S4096x256x7x7 .f32) (a2 : FVec Ideal S256x32768 .f32)
    (a3 : FVec Ideal S32768 .f32) (a4 a5 : FVec Ideal S64 .f32) (a6 a7 : FVec Ideal S256 .f32)
    (a8 : FVec Ideal S12544x256 .f32) (a9 a10 a11 : FVec Ideal S256 .f32)
    (x0 : Vec Ideal S16x256 .bf16) (x1 : Vec Ideal S16x256x49 .f32) (x2 : Vec Ideal S256x16384 .bf16)
    (x3 : Vec Ideal S1x16384 .f32) (x4 : Vec Ideal S256x16384 .bf16) (x5 : Vec Ideal S1x16384 .f32)
    (x6 x7 : Vec Ideal S1x64 .f32) (x8 x9 : Vec Ideal S1x256 .f32) (x10 : Vec Ideal S12544x256 .bf16)
    (x11 x12 x13 : Vec Ideal S1x256 .f32) (n : Fin 4096) (r : Fin 16) (o : Fin 256)
    (h0 : ∀ k : Fin 256, x0 (ix2 r k) = a0 (ix2 n k))
    (h1 : ∀ (ch : Fin 256) (s : Fin 49), x1 (ix3 r ch s) = a1 (ix4 n ch (gridRow s) (gridCol s)))
    (h2 : ∀ (k : Fin 256) (j : Fin 16384), x2 (ix2 k j) = a2 (ix2 k (lowHalf j)))
    (h3 : ∀ j : Fin 16384, x3 (ix2 0 j) = a3 (ix1 (lowHalf j)))
    (h4 : ∀ (k : Fin 256) (j : Fin 16384), x4 (ix2 k j) = a2 (ix2 k (highHalf j)))
    (h5 : ∀ j : Fin 16384, x5 (ix2 0 j) = a3 (ix1 (highHalf j)))
    (h6 : ∀ f : Fin 64, x6 (ix2 0 f) = a4 (ix1 f)) (h7 : ∀ f : Fin 64, x7 (ix2 0 f) = a5 (ix1 f))
    (h8 : ∀ q : Fin 256, x8 (ix2 0 q) = a6 (ix1 q)) (h9 : ∀ q : Fin 256, x9 (ix2 0 q) = a7 (ix1 q))
    (h10 : ∀ (j : Fin 12544) (q : Fin 256), x10 (ix2 j q) = a8 (ix2 j q))
    (h11 : ∀ q : Fin 256, x11 (ix2 0 q) = a9 (ix1 q)) (h12 : ∀ q : Fin 256, x12 (ix2 0 q) = a10 (ix1 q))
    (h13 : ∀ q : Fin 256, x13 (ix2 0 q) = a11 (ix1 q)) :
    k0_pay10 (k0_pay8 (k0_pay2 x0 x4 x5) (k0_pay3 x0 x2 x3 x1) (k0_pay4 x6) (k0_pay5 x7) (k0_pay6 x0 x2 x3 x1)
        (k0_pay7 x0 x2 x3 x1) x8) (k0_pay9 x9) x10 x11 x12 x13 (ix2 r o)
      = G a0 a1 a2 a3 a4 a5 a6 a7 a8 a9 a10 a11 (ix2 n o) := by
  rw [KerValue.payload_apply]
  show out _ _ _ _ _ _ _ _ _ _ _ _ _ _ o
    = out (fun k => a0 (ix2 n k)) (fun ch s => a1 (ix4 n ch (gridRow s) (gridCol s)))
        (fun k j => a2 (ix2 k (lowHalf j))) (fun j => a3 (ix1 (lowHalf j)))
        (fun k j => a2 (ix2 k (highHalf j))) (fun j => a3 (ix1 (highHalf j)))
        (fun f => a4 (ix1 f)) (fun f => a5 (ix1 f)) (fun q => a6 (ix1 q)) (fun q => a7 (ix1 q))
        (fun j q => a8 (ix2 j q)) (fun q => a9 (ix1 q)) (fun q => a10 (ix1 q)) (fun q => a11 (ix1 q)) o
  simp only [h0, h1, h2, h3, h4, h5, h6, h7, h8, h9, h10, h11, h12, h13]

/-- WHAT TILE `t` WRITES BACK is rows `16 t … 16 t + 15` of `G` of the arguments. -/
theorem flushed_eq (c : Dev nD) (t : Fin cfg0.N) :
    (dats m 0 c).flushed 14 t = ((cfg0.win 14).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))) := by
  rw [Value.flushed14]
  unfold Gen.out0_14
  rw [View.canon_unit_zero zero_offsets2]
  simp only [View.ld_unit_zero (S := S16x256) zero_offsets2, View.ld_unit_zero (S := S256x16384) zero_offsets2,
    View.ld_unit_zero (S := S1x16384) zero_offsets2, View.ld_unit_zero (S := S16x256x49) zero_offsets3,
    View.ld_unit_zero (S := S1x64) zero_offsets2, View.ld_unit_zero (S := S1x256) zero_offsets2,
    View.ld_unit_zero (S := S12544x256) zero_offsets2]
  obtain ⟨-, -, -, -, -, e0, e1⟩ := batch_index t
  refine funext fun (j : S16x256.Idx) => ?_
  obtain ⟨r, o, rfl⟩ : ∃ (r : Fin 16) (o : Fin 256), j = ix2 r o := ⟨j 0, j 1, eq_ix2 j⟩
  rw [View.read_apply]
  refine (tile_entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (rowOf t r) r o (params_block m c t r) (input_block m c t r) (weight1_block m c t) (bias1_block m c t)
      (weight2_block m c t) (bias2_block m c t) (scale1_block m c t) (shift1_block m c t) (scale2_block m c t)
      (shift2_block m c t) (fcWeight_block m c t) (fcBias_block m c t) (scale3_block m c t) (shift3_block m c t)).trans ?_
  show G _ _ _ _ _ _ _ _ _ _ _ _ (ix2 (rowOf t r) o) = G _ _ _ _ _ _ _ _ _ _ _ _ (((cfg0.win 14).blk t).view.emb (ix2 r o))
  refine congrArg _ (funext fun a => Fin.ext ?_)
  match a with
  | ⟨0, _⟩ => show 16 * t.val + r.val = win0_14.index t (0 : Fin 2) * 16 + 1 * r.val; omega
  | ⟨1, _⟩ => show o.val = win0_14.index t (1 : Fin 2) * 256 + 1 * o.val; omega

/-- Every entry of the result array is in some tile's block: row `n` is in tile `n / 16`. -/
theorem covered (i : S4096x256.Idx) :
    ∃ t : Fin cfg0.N, (cfg0.win 14).flush t = true ∧ i ∈ ((cfg0.win 14).blk t).view.set := by
  have hi0 : (i 0).val < 4096 := (i 0).isLt
  have hi1 : (i 1).val < 256 := (i 1).isLt
  obtain ⟨t, ht⟩ : ∃ t : Fin cfg0.N, t.val = (i 0).val / 16 :=
    ⟨⟨(i 0).val / 16, by rw [show cfg0.N = 256 from N_0]; omega⟩, rfl⟩
  obtain ⟨-, -, -, -, -, e0, e1⟩ := batch_index t
  refine ⟨t, flush0_14 t, ?_⟩
  show i ∈ ((View.whole main_v18).slice (win0_14.rect t)).set
  rw [View.set_slice_whole, Rect.mem_set_unit]
  intro a
  match a with
  | ⟨0, _⟩ =>
    show win0_14.index t (0 : Fin 2) * 16 ≤ (i 0).val ∧ (i 0).val < win0_14.index t (0 : Fin 2) * 16 + 16
    omega
  | ⟨1, _⟩ =>
    show win0_14.index t (1 : Fin 2) * 256 ≤ (i 1).val ∧ (i 1).val < win0_14.index t (1 : Fin 2) * 256 + 256
    omega

/-- THE RESULT ARRAY after the run is `G` of the arguments. -/
theorem final (c : Dev nD) : (dats m 0 c).arrAt 14 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) :=
  (dats m 0 c).arrAt_eq_of_cover 14 (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)))
    (fun t _ => flushed_eq m c t) covered

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Blocks

end
-- ==== Proof.lean ====
/- The kernel and the reference compute the same batch function at the extended reals.

   A sample's result is the sample function of Proof/Spec.lean: two generated weight rows (an affine map of the
   sample's parameter row), a convolution over the channels at each of the 49 positions, a normalisation over the
   64 features and a rectifier, a second convolution, normalisation over 256 channels and rectifier, then the
   49 x 256 features flattened row by row, a last affine map, and a third normalisation and rectifier. The kernel
   runs it on tiles of 16 samples with the weights resident; the reference on the whole batch at once, taking
   the two weight rows as the two column halves of one product. No sample reads another sample's data, so row n
   of either result is the sample function of sample n: `G`. Nothing but re-indexing of sums joins the two sides;
   in particular no distributive law is used, so the finiteness of the inputs is never opened.

   The three frames are the programs' runs with the results dropped; the idealization rewrote nothing. -/
import proofs.«174626_j24970939859163_1_alg».proof.Defs
import proofs.«174626_j24970939859163_1_alg».proof.Proof.Gen.Kernel
import proofs.«174626_j24970939859163_1_alg».proof.Proof.Gen.Kernel.Skeleton
import proofs.«174626_j24970939859163_1_alg».proof.Proof.Gen.Kernel.Launch
import proofs.«174626_j24970939859163_1_alg».proof.Proof.Gen.Kernel.Points
import proofs.«174626_j24970939859163_1_alg».proof.Proof.Gen.Kernel.Frame
import proofs.«174626_j24970939859163_1_alg».proof.Proof.Gen.KernelIdeal
import proofs.«174626_j24970939859163_1_alg».proof.Proof.Gen.KernelIdeal.Skeleton
import proofs.«174626_j24970939859163_1_alg».proof.Proof.Gen.KernelIdeal.Launch
import proofs.«174626_j24970939859163_1_alg».proof.Proof.Gen.KernelIdeal.Points
import proofs.«174626_j24970939859163_1_alg».proof.Proof.Gen.KernelIdeal.Frame
import proofs.«174626_j24970939859163_1_alg».proof.Proof.Gen.ReferenceIdeal
import proofs.«174626_j24970939859163_1_alg».proof.Proof.Gen.Pre_finite_inputs
import proofs.«174626_j24970939859163_1_alg».proof.Proof.Gen.KernelIdeal.Value
import proofs.«174626_j24970939859163_1_alg».proof.Proof.RefReadPatched
import proofs.«174626_j24970939859163_1_alg».proof.Proof.RefValue
import proofs.«174626_j24970939859163_1_alg».proof.Proof.Blocks
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The idealized reference runs and leaves its arguments as they were: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, both idealized programs end with the result array at `G` of the arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.ReadP.val_main_v91_eq, Cert.ReferenceIdeal.RefValue.ref_eq_G, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
